-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S64 .f32) (main_arg9 : FVec F S10x64 .f32) (main_arg10 : FVec F S10 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S10x64 .f32 := Host.absf main_arg9
  let main_cst_14 : FVec F S_ .f32 := constant S_ .f32 0x7F800000#32
  let main_v40 : FVec F S10x64 .f32 := broadcastInDim S10x64 ![] bcast_S_S10x64 main_cst_14
  let main_v41 : IVec S10x64 1 := cmpf .olt main_v39 main_v40
  let main_c_15 : IVec S_ 1 := constantI S_ 1 1#1
  let main_v42 : IVec S_ 1 := (fun x v => Host.reduce IntOp.andi x v reducesTo_S10x64_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64 .f32) (main_arg9 : FVec F S10x64 .f32) (main_arg10 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S16384x64 .f32) (main_arg1 : FVec F S16384x16384 .f32) (main_arg2 : IVec S16384 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S10x64 .f32) (main_arg10 : FVec F S10 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x64 : Shape := ⟨2, ![1, 64]⟩
abbrev S128x16384 : Shape := ⟨2, ![128, 16384]⟩
abbrev S128x64 : Shape := ⟨2, ![128, 64]⟩
abbrev S1x16384 : Shape := ⟨2, ![1, 16384]⟩
abbrev S2x128x64 : Shape := ⟨3, ![2, 128, 64]⟩
abbrev S1x128 : Shape := ⟨2, ![1, 128]⟩
abbrev S1x128x64 : Shape := ⟨3, ![1, 128, 64]⟩
abbrev S128x128 : Shape := ⟨2, ![128, 128]⟩
abbrev S_ : Shape := ⟨0, ![]⟩
abbrev S64x10 : Shape := ⟨2, ![64, 10]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 46
  | .vmem => 16
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10x64, .f32⟩
  | .hbm, ⟨10, _⟩ => ⟨S10, .f32⟩
  | .hbm, ⟨11, _⟩ => ⟨S1x64, .f32⟩
  | .hbm, ⟨12, _⟩ => ⟨S16384x64, .f32⟩
  | .hbm, ⟨13, _⟩ => ⟨S1x64, .f32⟩
  | .hbm, ⟨14, _⟩ => ⟨S1x16384, .i32⟩
  | .hbm, ⟨15, _⟩ => ⟨S2x128x64, .f32⟩
  | .hbm, ⟨16, _⟩ => ⟨S_, .f32⟩
  | .hbm, ⟨17, _⟩ => ⟨S128x64, .f32⟩
  | .hbm, ⟨18, _⟩ => ⟨S64x64, .f32⟩
  | .hbm, ⟨19, _⟩ => ⟨S128x64, .f32⟩
  | .hbm, ⟨20, _⟩ => ⟨S1x64, .f32⟩
  | .hbm, ⟨21, _⟩ => ⟨S128x64, .f32⟩
  | .hbm, ⟨22, _⟩ => ⟨S128x64, .f32⟩
  | .hbm, ⟨23, _⟩ => ⟨S_, .f32⟩
  | .hbm, ⟨24, _⟩ => ⟨S128x64, .f32⟩
  | .hbm, ⟨25, _⟩ => ⟨S128x64, .f32⟩
  | .hbm, ⟨26, _⟩ => ⟨S64x10, .f32⟩
  | .hbm, ⟨27, _⟩ => ⟨S128x10, .f32⟩
  | .hbm, ⟨28, _⟩ => ⟨S1x10, .f32⟩
  | .hbm, ⟨29, _⟩ => ⟨S128x10, .f32⟩
  | .hbm, ⟨30, _⟩ => ⟨S128x10, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128x1, .f32⟩
  | .hbm, ⟨37, _⟩ => ⟨S128x10, .f32⟩
  | .hbm, ⟨38, _⟩ => ⟨S128x10, .f32⟩
  | .hbm, ⟨39, _⟩ => ⟨S128x10, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S128x1, .f32⟩
  | .hbm, ⟨44, _⟩ => ⟨S128x10, .f32⟩
  | .hbm, ⟨45, _⟩ => ⟨S128x10, .f32⟩
  | .local _ .vmem, ⟨0, _⟩ => ⟨S128x16384, .f32⟩
  | .local _ .vmem, ⟨1, _⟩ => ⟨S128x16384, .f32⟩
  | .local _ .vmem, ⟨2, _⟩ => ⟨S16384x64, .f32⟩
  | .local _ .vmem, ⟨3, _⟩ => ⟨S64x64, .f32⟩
  | .local _ .vmem, ⟨4, _⟩ => ⟨S1x64, .f32⟩
  | .local _ .vmem, ⟨5, _⟩ => ⟨S128x64, .f32⟩
  | .local _ .vmem, ⟨6, _⟩ => ⟨S128x64, .f32⟩
  | .local _ .vmem, ⟨7, _⟩ => ⟨S128x16384, .f32⟩
  | .local _ .vmem, ⟨8, _⟩ => ⟨S128x16384, .f32⟩
  | .local _ .vmem, ⟨9, _⟩ => ⟨S16384x64, .f32⟩
  | .local _ .vmem, ⟨10, _⟩ => ⟨S64x64, .f32⟩
  | .local _ .vmem, ⟨11, _⟩ => ⟨S1x64, .f32⟩
  | .local _ .vmem, ⟨12, _⟩ => ⟨S1x128, .i32⟩
  | .local _ .vmem, ⟨13, _⟩ => ⟨S1x128, .i32⟩
  | .local _ .vmem, ⟨14, _⟩ => ⟨S1x128x64, .f32⟩
  | .local _ .vmem, ⟨15, _⟩ => ⟨S1x128x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v17 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![128], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v5 : Index := Scalar.indexCast v1
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 64], ![false, false]⟩

def k1_mult1 (i : grid1.Coords) : BitVec 32 :=
  let arg0 : BitVec 32 := BitVec.ofNat 32 (i 0).val
  let c64_i32 : BitVec 32 := 64#32
  let v3 : BitVec 32 := Scalar.muli arg0 c64_i32
  let arg1 : BitVec 32 := BitVec.ofNat 32 (i 1).val
  let v4 : BitVec 32 := Scalar.addi v3 arg1
  let c128_i32 : BitVec 32 := 128#32
  let v5 : BitVec 32 := Scalar.muli v4 c128_i32
  v5
def k1_off1 (i : grid1.Coords) : Fin 2 → Nat :=
  let arg0 : BitVec 32 := BitVec.ofNat 32 (i 0).val
  let c64_i32 : BitVec 32 := 64#32
  let v3 : BitVec 32 := Scalar.muli arg0 c64_i32
  let arg1 : BitVec 32 := BitVec.ofNat 32 (i 1).val
  let v4 : BitVec 32 := Scalar.addi v3 arg1
  let c128_i32 : BitVec 32 := 128#32
  let v5 : BitVec 32 := Scalar.muli v4 c128_i32
  let v6 : BitVec 32 := v5
  let v11 : Index := Scalar.indexCast v6
  let c0_4 : Index := 0#32
  ![v11.toNat, 0]
def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S64_S1x64 : S64.ShapeCasts S1x64
  inb_S128x16384_S128x16384_0_0 : ∀ a, (![0, 0] : Fin 2 → Nat) a + S128x16384.size a ≤ S128x16384.size a
  h_S128x16384 : 0 < S128x16384.numel
  inb_S16384x64_S16384x64_0_0 : ∀ a, (![0, 0] : Fin 2 → Nat) a + S16384x64.size a ≤ S16384x64.size a
  h_S16384x64 : 0 < S16384x64.numel
  h_S128x64 : 0 < S128x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S128x64_S128x64_0_0 : ∀ a, (![0, 0] : Fin 2 → Nat) a + S128x64.size a ≤ S128x64.size a
  shapeCasts_S16384_S1x16384 : S16384.ShapeCasts S1x16384
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  shapeCasts_S16384x64_S16384x64 : S16384x64.ShapeCasts S16384x64
  shapeCasts_S128x64_S128x64 : S128x64.ShapeCasts S128x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S128x128_d0_w32 : S128x128.Iotas .tc 32 [0]
  broadcasts_S1x128_S128x128 : S1x128.Broadcasts S128x128
  natLt_1_32 : 1 < 32
  reducesTo_S2x128x64_S128x64_d0 : S2x128x64.ReducesTo [0] S128x64
  h_S_ : 0 < S_.numel
  transposes_S64x64_S64x64_1_0 : S64x64.Transposes [1, 0] S64x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  transposes_S10x64_S64x10_1_0 : S10x64.Transposes [1, 0] S64x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  dot_S128x16384_S16384x64_S128x64_1_0_0_1_n_n_wf : DotDims.WF S128x16384 S16384x64 S128x64 [1] [0] [0] [1] [] []
  dot_S128x64_S64x64_S128x64_1_0_0_1_n_n_wf : DotDims.WF S128x64 S64x64 S128x64 [1] [0] [0] [1] [] []
  dot_S128x128_S128x64_S128x64_1_0_0_1_n_n_wf : DotDims.WF S128x128 S128x64 S128x64 [1] [0] [0] [1] [] []
  dot_S128x64_S64x10_S128x10_1_0_0_1_n_n_wf : DotDims.WF S128x64 S64x10 S128x10 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .f32 = 32 ∨ (Rect.block (s := S16384x64) S16384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S16384x64.size a
  hwx0_4 : ∀ i : grid0.Coords, EltTy.bits .f32 = 32 ∨ (Rect.block (s := S16384x64) S128x64.size (cc0_transform_4 i) (hinb0_4 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .f32 = 32 ∨ (Rect.block (s := S16384x64) S16384x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x16384.size a
  hwx1_4 : ∀ i : grid1.Coords, EltTy.bits .i32 = 32 ∨ (Rect.block (s := S1x16384) S1x128.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x64.size a ≤ S2x128x64.size a
  hwx1_5 : ∀ i : grid1.Coords, EltTy.bits .f32 = 32 ∨ (Rect.block (s := S2x128x64) S1x128x64.size (cc1_transform_5 i) (hinb1_5 i)).WholeWords (EltTy.packing .f32)

variable [Facts₀]

def dot_S128x16384_S16384x64_S128x64_1_0_0_1_n_n : DotDims S128x16384 S16384x64 S128x64 where
  lhsContracting := [1]
  rhsContracting := [0]
  lhsNonContracting := [0]
  rhsNonContracting := [1]
  lhsBatch := []
  rhsBatch := []
  wf := dot_S128x16384_S16384x64_S128x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x64 : Shape := ⟨2, ![16384, 64]⟩
abbrev S16384x16384 : Shape := ⟨2, ![16384, 16384]⟩
abbrev S16384 : Shape := ⟨1, ![16384]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩
abbrev S1x64 : Shape := ⟨2, ![1, 64]⟩
abbrev S128x64 : Shape := ⟨2, ![128, 64]⟩
abbrev S16384x1 : Shape := ⟨2, ![16384, 1]⟩
abbrev S64x10 : Shape := ⟨2, ![64, 10]⟩
abbrev S128x10 : Shape := ⟨2, ![128, 10]⟩
abbrev S1x10 : Shape := ⟨2, ![1, 10]⟩
abbrev S128 : Shape := ⟨1, ![128]⟩
abbrev S128x1 : Shape := ⟨2, ![128, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S16384, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S10x64, .f32⟩
  | .hbm, ⟨10, _⟩ => ⟨S10, .f32⟩
  | .hbm, ⟨11, _⟩ => ⟨S16384x16384, .i32⟩
  | .hbm, ⟨12, _⟩ => ⟨S16384x16384, .i32⟩
  | .hbm, ⟨13, _⟩ => ⟨S_, .i32⟩
  | .hbm, ⟨14, _⟩ => ⟨S16384x16384, .i32⟩
  | .hbm, ⟨15, _⟩ => ⟨S16384x16384, .i32⟩
  | .hbm, ⟨16, _⟩ => ⟨S16384x16384, .i1⟩
  | .hbm, ⟨17, _⟩ => ⟨S16384x16384, .f32⟩
  | .hbm, ⟨18, _⟩ => ⟨S16384x16384, .f32⟩
  | .hbm, ⟨19, _⟩ => ⟨S16384x64, .f32⟩
  | .hbm, ⟨20, _⟩ => ⟨S64x64, .f32⟩
  | .hbm, ⟨21, _⟩ => ⟨S16384x64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S64x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S128x64, .f32⟩
  | .hbm, ⟨39, _⟩ => ⟨S16384x1, .i32⟩
  | .hbm, ⟨40, _⟩ => ⟨S128x64, .f32⟩
  | .hbm, ⟨41, _⟩ => ⟨S64x64, .f32⟩
  | .hbm, ⟨42, _⟩ => ⟨S128x64, .f32⟩
  | .hbm, ⟨43, _⟩ => ⟨S1x64, .f32⟩
  | .hbm, ⟨44, _⟩ => ⟨S128x64, .f32⟩
  | .hbm, ⟨45, _⟩ => ⟨S128x64, .f32⟩
  | .hbm, ⟨46, _⟩ => ⟨S_, .f32⟩
  | .hbm, ⟨47, _⟩ => ⟨S128x64, .f32⟩
  | .hbm, ⟨48, _⟩ => ⟨S128x64, .f32⟩
  | .hbm, ⟨49, _⟩ => ⟨S64x10, .f32⟩
  | .hbm, ⟨50, _⟩ => ⟨S128x10, .f32⟩
  | .hbm, ⟨51, _⟩ => ⟨S1x10, .f32⟩
  | .hbm, ⟨52, _⟩ => ⟨S128x10, .f32⟩
  | .hbm, ⟨53, _⟩ => ⟨S128x10, .f32⟩
  | .hbm, ⟨54, _⟩ => ⟨S_, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128x1, .f32⟩
  | .hbm, ⟨60, _⟩ => ⟨S128x10, .f32⟩
  | .hbm, ⟨61, _⟩ => ⟨S128x10, .f32⟩
  | .hbm, ⟨62, _⟩ => ⟨S128x10, .f32⟩
  | .hbm, ⟨63, _⟩ => ⟨S_, .f32⟩
  | .hbm, ⟨64, _⟩ => ⟨S128, .f32⟩
  | .hbm, ⟨65, _⟩ => ⟨S128x1, .f32⟩
  | .hbm, ⟨66, _⟩ => ⟨S128x1, .f32⟩
  | .hbm, ⟨67, _⟩ => ⟨S128x10, .f32⟩
  | .hbm, ⟨68, _⟩ => ⟨S128x10, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_cst : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call2_cst : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call3_cst : Ref sig .tc := ⟨.hbm, 54, rfl⟩
abbrev main_call3_v0 : Ref sig .tc := ⟨.hbm, 55, rfl⟩
abbrev main_call3_cst_0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_cst_1 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_v35 : Ref sig .tc := ⟨.hbm, 68, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  transposes_S64x64_S64x64_1_0 : S64x64.Transposes [1, 0] S64x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S_S128x64 : S_.BroadcastsInDim S128x64 (![] : Fin 0 → Fin S128x64.rank)
  bcast_S16384_S16384x1_0 : S16384.BroadcastsInDim S16384x1 (![0] : Fin 1 → Fin S16384x1.rank)
  bcast_S1x64_S128x64_0_1 : S1x64.BroadcastsInDim S128x64 (![0, 1] : Fin 2 → Fin S128x64.rank)
  transposes_S10x64_S64x10_1_0 : S10x64.Transposes [1, 0] S64x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  scatter_S128x64_S16384x1_S16384x64_1_0_0_1_wf : ScatterDims.WF S128x64 S16384x1 S16384x64 [1] [0] [0] 1
  dot_S128x64_S64x64_S128x64_1_0_0_1_n_n_wf : DotDims.WF S128x64 S64x64 S128x64 [1] [0] [0] [1] [] []
  dot_S128x64_S64x10_S128x10_1_0_0_1_n_n_wf : DotDims.WF S128x64 S64x10 S128x10 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def scatter_S128x64_S16384x1_S16384x64_1_0_0_1 : ScatterDims S128x64 S16384x1 S16384x64 where
  updateWindowDims := [1]
  insertedWindowDims := [0]
  scatterDimsToOperandDims := [0]
  indexVectorDim := 1
  wf := scatter_S128x64_S16384x1_S16384x64_1_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
/-
  What the two programs compute, as functions of the argument arrays over the extended reals.

  A graph of 16384 nodes with 64 features per node, a dense adjacency matrix `adj`, and a graph id per node.
  One message-passing layer is `relu ((adj + I) · x · Wᵀ + b)`. The kernel never forms `adj + I`: it adds the
  node's own row to `adj · x` (`layer`); the reference adds the identity matrix to `adj` first (`layerI`).
  The two agree wherever `(a + e) · v = a · v + e · v` holds, which on the extended reals asks that the
  factors be real numbers.
  After two layers the node features are summed per graph id. The kernel does it tile by tile of 128 rows
  with a one-hot matrix product, accumulated in two halves that are added at the end (`segK`); the reference
  adds every row into the row its id names (`segR`). Both are sums of the same terms, and a row whose id
  is no graph's is in neither.
  The head (`tail`) is the same sequence of operations in both programs.
-/
import Idealize.ShloMosaic.PureOps
import Idealize.ShloMosaic.PureOps.Ideal
import Idealize.ShloMosaic.Lib.ValueIdx

noncomputable section

namespace Cert.Gnn

open Idealize.ShloMosaic Idealize.ShloMosaic.ValueIdx

abbrev SNxD : Shape := ⟨2, ![16384, 64]⟩
abbrev SNxN : Shape := ⟨2, ![16384, 16384]⟩
abbrev SDxD : Shape := ⟨2, ![64, 64]⟩
abbrev SD : Shape := ⟨1, ![64]⟩
abbrev SN : Shape := ⟨1, ![16384]⟩
abbrev SGxD : Shape := ⟨2, ![128, 64]⟩
abbrev S2xGxD : Shape := ⟨3, ![2, 128, 64]⟩
abbrev SCxD : Shape := ⟨2, ![10, 64]⟩
abbrev SC : Shape := ⟨1, ![10]⟩
abbrev SGxC : Shape := ⟨2, ![128, 10]⟩
abbrev S0 : Shape := ⟨0, ![]⟩
abbrev S1xD : Shape := ⟨2, ![1, 64]⟩
abbrev SDxC : Shape := ⟨2, ![64, 10]⟩
abbrev S1xC : Shape := ⟨2, ![1, 10]⟩
abbrev SG : Shape := ⟨1, ![128]⟩
abbrev SGx1 : Shape := ⟨2, ![128, 1]⟩

/-! ## One layer, in the two arrangements -/

/-- The layer with the self loop as a separate addend: at node `n` and feature `h`,
    `max (∑ d, (∑ k, adj n k · x k d + x n d) · W h d + b h) 0`. -/
def layer (adj : SNxN.Idx → EReal) (x : SNxD.Idx → EReal) (W : SDxD.Idx → EReal) (b : SD.Idx → EReal) :
    SNxD.Idx → EReal :=
  fun i => max (∑ d : Fin 64, (∑ k : Fin 16384, adj (ix2 (i 0) k) * x (ix2 k d) + x (ix2 (i 0) d)) * W (ix2 (i 1) d)
    + b (ix1 (i 1))) 0

/-- The layer with the identity matrix added to the adjacency first:
    `max (∑ d, (∑ k, (adj n k + [n = k]) · x k d) · W h d + b h) 0`. -/
def layerI (adj : SNxN.Idx → EReal) (x : SNxD.Idx → EReal) (W : SDxD.Idx → EReal) (b : SD.Idx → EReal) :
    SNxD.Idx → EReal :=
  fun i => max (∑ d : Fin 64, (∑ k : Fin 16384, (adj (ix2 (i 0) k) + (if (i 0).val = k.val then (1 : EReal) else 0)) * x (ix2 k d))
    * W (ix2 (i 1) d) + b (ix1 (i 1))) 0

/-! ## The sum per graph id, in the two arrangements -/

/-- Row `j` of the 128-row tile `t` (for `t < 128` this is `128 · t + j`; the remainder makes it total). -/
def row (t : Nat) (j : Fin 128) : Fin 16384 := ⟨(128 * t + j.val) % 16384, Nat.mod_lt _ (by decide)⟩

/-- What tile `t` adds to graph `g`, feature `h`: the one-hot row of `g` over the tile's ids times the
    tile's features. -/
def tileSum (idx : SN.Idx → BitVec 32) (y : SNxD.Idx → EReal) (t : Nat) (g : Fin 128) (h : Fin 64) : EReal :=
  ∑ j : Fin 128, (if idx (ix1 (row t j)) = BitVec.ofNat 32 g.val then (1 : EReal) else 0) * y (ix2 (row t j) h)

/-- The two halves: half `c` starts from zero and adds the tiles `64 · c … 64 · c + 63` in order. -/
def coreParts (idx : SN.Idx → BitVec 32) (y : SNxD.Idx → EReal) : S2xGxD.Idx → EReal :=
  fun i => 0 + ∑ s ∈ Finset.range 64, tileSum idx y (64 * (i 0).val + s) (i 1) (i 2)

/-- The kernel's arrangement: zero plus the two halves. -/
def segK (idx : SN.Idx → BitVec 32) (y : SNxD.Idx → EReal) : SGxD.Idx → EReal :=
  fun i => 0 + ∑ c : Fin 2, coreParts idx y (ix3 c (i 0) (i 1))

/-- The reference's arrangement: zero plus every row whose id is `g`. -/
def segR (idx : SN.Idx → BitVec 32) (y : SNxD.Idx → EReal) : SGxD.Idx → EReal :=
  fun i => 0 + ∑ n : Fin 16384, if idx (ix1 n) = BitVec.ofNat 32 (i 0).val then y (ix2 n (i 1)) else 0

/-! ## The head: two dense layers and a log-softmax over the classes, the same operations in both programs -/

def dotGD : DotDims SGxD SDxD SGxD where
  lhsContracting := [1]
  rhsContracting := [0]
  lhsNonContracting := [0]
  rhsNonContracting := [1]
  lhsBatch := []
  rhsBatch := []
  wf := by decide

def dotGC : DotDims SGxD SDxC SGxC where
  lhsContracting := [1]
  rhsContracting := [0]
  lhsNonContracting := [0]
  rhsNonContracting := [1]
  lhsBatch := []
  rhsBatch := []
  wf := by decide

/-- `relu (seg · W3ᵀ + b3)`. -/
def dense3 (seg : SGxD.Idx → EReal) (W3 : SDxD.Idx → EReal) (b3 : SD.Idx → EReal) : FVec Ideal SGxD .f32 :=
  maximumf (F := Ideal) (φ := .f32)
    (addf (F := Ideal) (φ := .f32)
      (Host.dotGeneral (F := Ideal) (φ₁ := .f32) (φ₂ := .f32) dotGD none seg
        (transpose SDxD [1, 0] W3 (by decide)))
      (broadcastInDim SGxD ![0, 1] (by decide) (broadcastInDim S1xD ![1] (by decide) b3)))
    (broadcastInDim SGxD ![] (by decide) (constant (F := Ideal) S0 .f32 0x00000000#32))

/-- `h · W4ᵀ + b4`. -/
def dense4 (h : SGxD.Idx → EReal) (W4 : SCxD.Idx → EReal) (b4 : SC.Idx → EReal) : FVec Ideal SGxC .f32 :=
  addf (F := Ideal) (φ := .f32)
    (Host.dotGeneral (F := Ideal) (φ₁ := .f32) (φ₂ := .f32) dotGC none h
      (transpose SDxC [1, 0] W4 (by decide)))
    (broadcastInDim SGxC ![0, 1] (by decide) (broadcastInDim S1xC ![1] (by decide) b4))

/-- The logits less the row maximum. -/
def shifted (z : SGxC.Idx → EReal) : FVec Ideal SGxC .f32 :=
  subf (F := Ideal) (φ := .f32) z
    (broadcastInDim SGxC ![0, 1] (by decide)
      (broadcastInDim SGx1 ![0] (by decide)
        (maximumf (F := Ideal) (φ := .f32)
          (broadcastInDim SG ![] (by decide) (constant (F := Ideal) S0 .f32 0xFF800000#32))
          (Host.reduce (axes := [1]) (t := SG) (FloatOps.maximumf (F := Ideal) (φ := .f32)) z
            (constant (F := Ideal) S0 .f32 0xFF800000#32) (by decide) (by decide)))))

/-- `log_softmax` over the classes: the shifted logits less the log of the sum of their exponentials. -/
def logSoftmax (z : SGxC.Idx → EReal) : FVec Ideal SGxC .f32 :=
  subf (F := Ideal) (φ := .f32) (shifted z)
    (broadcastInDim SGxC ![0, 1] (by decide)
      (Host.log (F := Ideal)
        (broadcastInDim SGx1 ![0] (by decide)
          (Host.reduceAdd (F := Ideal) (φ := .f32) (axes := [1]) (t := SG) (Host.exp (F := Ideal) (shifted z))
            (constant (F := Ideal) S0 .f32 0x00000000#32) (by decide) (by decide)))))

/-- The head, from the per-graph sums to the result. -/
def tail (seg : SGxD.Idx → EReal) (W3 : SDxD.Idx → EReal) (b3 : SD.Idx → EReal) (W4 : SCxD.Idx → EReal)
    (b4 : SC.Idx → EReal) : SGxC.Idx → EReal :=
  logSoftmax (dense4 (dense3 seg W3 b3) W4 b4)

/-! ## The two programs' results -/

/-- The kernel's result. -/
def resultK (x : SNxD.Idx → EReal) (adj : SNxN.Idx → EReal) (idx : SN.Idx → BitVec 32)
    (W1 : SDxD.Idx → EReal) (b1 : SD.Idx → EReal) (W2 : SDxD.Idx → EReal) (b2 : SD.Idx → EReal)
    (W3 : SDxD.Idx → EReal) (b3 : SD.Idx → EReal) (W4 : SCxD.Idx → EReal) (b4 : SC.Idx → EReal) : SGxC.Idx → EReal :=
  tail (segK idx (layer adj (layer adj x W1 b1) W2 b2)) W3 b3 W4 b4

/-- The reference's result. -/
def resultR (x : SNxD.Idx → EReal) (adj : SNxN.Idx → EReal) (idx : SN.Idx → BitVec 32)
    (W1 : SDxD.Idx → EReal) (b1 : SD.Idx → EReal) (W2 : SDxD.Idx → EReal) (b2 : SD.Idx → EReal)
    (W3 : SDxD.Idx → EReal) (b3 : SD.Idx → EReal) (W4 : SCxD.Idx → EReal) (b4 : SC.Idx → EReal) : SGxC.Idx → EReal :=
  tail (segR idx (layerI adj (layerI adj x W1 b1) W2 b2)) W3 b3 W4 b4

/-- An extended real that is a real number. -/
def IsReal (v : EReal) : Prop := ∃ r : ℝ, v = (r : EReal)

end Cert.Gnn

end
-- ==== Proof.KLayer.lean ====
/-
  The arithmetic of one layer on a tile of 128 rows, read at an index: the body's value is
  `max (∑ d, (∑ k, a p k · xs k d + self p d) · w h d + b 0 h) 0` at row `p` of the tile and feature `h`.
-/
import proofs.«404367_j83356725281276_3_alg».proof.Proof.Gen.KernelIdeal.Skeleton
import proofs.«404367_j83356725281276_3_alg».proof.Proof.Spec
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Tile

open Cert.KernelIdeal Cert.KernelIdeal.Gen Idealize.ShloMosaic Idealize.ShloMosaic.ValueIdx

/-! ## The two matrix products at an index

Each product contracts the left operand's second axis against the right operand's first; into a zero
accumulator its element at `(p, q)` is `∑ k, x p k · y k q`. The four facts per product say which coordinate of
each operand the output index and the contraction index supply. -/

theorem lhs_agg_0 (i : S128x64.Idx) (q : dot_S128x16384_S16384x64_S128x64_1_0_0_1_n_n.contr.Idx) :
    (dot_S128x16384_S16384x64_S128x64_1_0_0_1_n_n.lhsIdx i q 0).val = (i 0).val := by
  unfold DotDims.lhsIdx
  rw [dif_neg (show ¬(0 : Fin S128x16384.rank) ∈ dot_S128x16384_S16384x64_S128x64_1_0_0_1_n_n.lhsBatch by decide), dif_pos (show (0 : Fin S128x16384.rank) ∈ dot_S128x16384_S16384x64_S128x64_1_0_0_1_n_n.lhsNonContracting by decide)]
  rfl
theorem lhs_agg_1 (i : S128x64.Idx) (q : dot_S128x16384_S16384x64_S128x64_1_0_0_1_n_n.contr.Idx) :
    (dot_S128x16384_S16384x64_S128x64_1_0_0_1_n_n.lhsIdx i q 1).val = (q ⟨0, by decide⟩).val :=
  dot_S128x16384_S16384x64_S128x64_1_0_0_1_n_n.lhsIdx_val_of_single rfl i q
theorem rhs_agg_0 (i : S128x64.Idx) (q : dot_S128x16384_S16384x64_S128x64_1_0_0_1_n_n.contr.Idx) :
    (dot_S128x16384_S16384x64_S128x64_1_0_0_1_n_n.rhsIdx i q 0).val = (q ⟨0, by decide⟩).val :=
  dot_S128x16384_S16384x64_S128x64_1_0_0_1_n_n.rhsIdx_val_of_single rfl i q
theorem rhs_agg_1 (i : S128x64.Idx) (q : dot_S128x16384_S16384x64_S128x64_1_0_0_1_n_n.contr.Idx) :
    (dot_S128x16384_S16384x64_S128x64_1_0_0_1_n_n.rhsIdx i q 1).val = (i 1).val := by
  unfold DotDims.rhsIdx
  rw [dif_neg (show ¬(1 : Fin S16384x64.rank) ∈ dot_S128x16384_S16384x64_S128x64_1_0_0_1_n_n.rhsBatch by decide), dif_pos (show (1 : Fin S16384x64.rank) ∈ dot_S128x16384_S16384x64_S128x64_1_0_0_1_n_n.rhsNonContracting by decide)]
  rfl

/-- The aggregation `a · xs` into zero, at row `p` and feature `q`. -/
theorem agg_apply (x : FVec Ideal S128x16384 .f32) (y : FVec Ideal S16384x64 .f32) (p : Fin 128) (q : Fin 64) :
    matmul (F := Ideal) dot_S128x16384_S16384x64_S128x64_1_0_0_1_n_n none x y (constant (F := Ideal) S128x64 .f32 0x00000000#32) (ix2 p q)
      = ∑ k : Fin 16384, x (ix2 p k) * y (ix2 k q) := by
  simp only [matmul]
  rw [Ideal.matmul_constant_zero_apply, ← Equiv.sum_comp (ValueIdx.contrEquiv1 dot_S128x16384_S16384x64_S128x64_1_0_0_1_n_n 16384 rfl rfl).symm]
  refine Finset.sum_congr rfl fun k _ => ?_
  have hk := ValueIdx.contrEquiv1_symm_val dot_S128x16384_S16384x64_S128x64_1_0_0_1_n_n 16384 rfl rfl k
  have el : dot_S128x16384_S16384x64_S128x64_1_0_0_1_n_n.lhsIdx (ix2 p q) ((ValueIdx.contrEquiv1 dot_S128x16384_S16384x64_S128x64_1_0_0_1_n_n 16384 rfl rfl).symm k) = ix2 p k := funext fun a => Fin.ext (by
    match a with
    | ⟨0, _⟩ => exact lhs_agg_0 _ _
    | ⟨1, _⟩ => exact (lhs_agg_1 _ _).trans hk)
  have er : dot_S128x16384_S16384x64_S128x64_1_0_0_1_n_n.rhsIdx (ix2 p q) ((ValueIdx.contrEquiv1 dot_S128x16384_S16384x64_S128x64_1_0_0_1_n_n 16384 rfl rfl).symm k) = ix2 k q := funext fun a => Fin.ext (by
    match a with
    | ⟨0, _⟩ => exact (rhs_agg_0 _ _).trans hk
    | ⟨1, _⟩ => exact rhs_agg_1 _ _)
  rw [el, er]

theorem lhs_feat_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem lhs_feat_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
theorem rhs_feat_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
theorem rhs_feat_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- The feature product `x · y` into zero, at row `p` and feature `q`. -/
theorem feat_apply (x : FVec Ideal S128x64 .f32) (y : FVec Ideal S64x64 .f32) (p : Fin 128) (q : Fin 64) :
    matmul (F := Ideal) dot_S128x64_S64x64_S128x64_1_0_0_1_n_n none x y (constant (F := Ideal) S128x64 .f32 0x00000000#32) (ix2 p q)
      = ∑ k : Fin 64, x (ix2 p k) * y (ix2 k q) := by
  simp only [matmul]
  rw [Ideal.matmul_constant_zero_apply, ← Equiv.sum_comp (ValueIdx.contrEquiv1 dot_S128x64_S64x64_S128x64_1_0_0_1_n_n 64 rfl rfl).symm]
  refine Finset.sum_congr rfl fun k _ => ?_
  have hk := ValueIdx.contrEquiv1_symm_val dot_S128x64_S64x64_S128x64_1_0_0_1_n_n 64 rfl rfl k
  have el : dot_S128x64_S64x64_S128x64_1_0_0_1_n_n.lhsIdx (ix2 p q) ((ValueIdx.contrEquiv1 dot_S128x64_S64x64_S128x64_1_0_0_1_n_n 64 rfl rfl).symm k) = ix2 p k := funext fun a => Fin.ext (by
    match a with
    | ⟨0, _⟩ => exact lhs_feat_0 _ _
    | ⟨1, _⟩ => exact (lhs_feat_1 _ _).trans hk)
  have er : dot_S128x64_S64x64_S128x64_1_0_0_1_n_n.rhsIdx (ix2 p q) ((ValueIdx.contrEquiv1 dot_S128x64_S64x64_S128x64_1_0_0_1_n_n 64 rfl rfl).symm k) = ix2 k q := funext fun a => Fin.ext (by
    match a with
    | ⟨0, _⟩ => exact (rhs_feat_0 _ _).trans hk
    | ⟨1, _⟩ => exact rhs_feat_1 _ _)
  rw [el, er]

/-! ## The layout operations at an index -/

/-- The transposed weights at `(d, h)` are the weights at `(h, d)`. -/
theorem transpose_w_apply {α : Type} (w : S64x64.Idx → α) (d h : Fin 64) :
    transpose S64x64 [1, 0] w transposes_S64x64_p1_0_S64x64 (ix2 d h) = w (ix2 h d) :=
  transpose_apply [1, 0] w transposes_S64x64_p1_0_S64x64 (ix2 d h) (ix2 h d) (fun c => by
    match c with
    | ⟨0, _⟩ => rfl
    | ⟨1, _⟩ => rfl)

/-- The bias row spread over the 128 rows: at `(p, h)` it is the row's entry `h`. -/
theorem bias_apply {α : Type} (b : S1x64.Idx → α) (p : Fin 128) (h : Fin 64) :
    broadcastTo S128x64 (shapeCast S1x64 b shapeCasts_S1x64_S1x64) broadcasts_S1x64_S128x64 (ix2 p h)
      = b (ix2 (0 : Fin 1) h) := by
  rw [shapeCast_self]
  exact broadcastTo_apply b broadcasts_S1x64_S128x64 (ix2 p h) (ix2 (0 : Fin 1) h) (fun c => by
    match c with
    | ⟨0, _⟩ => rfl
    | ⟨1, _⟩ => rfl)

/-! ## The layer on a tile -/

theorem k0_pay1_apply (a : Vec Ideal S128x16384 .f32) (xs : Vec Ideal S16384x64 .f32) (self : Vec Ideal S128x64 .f32)
    (w : Vec Ideal S64x64 .f32) (b : Vec Ideal S1x64 .f32) (p : Fin 128) (h : Fin 64) :
    k0_pay1 (F := Ideal) a xs self w b (ix2 p h)
      = max (∑ d : Fin 64, (∑ k : Fin 16384, a (ix2 p k) * xs (ix2 k d) + self (ix2 p d)) * w (ix2 h d)
          + b (ix2 (0 : Fin 1) h)) 0 := by
  unfold k0_pay1
  dsimp only
  -- the outer maximum, the bias addend and the second product, read at `(p, h)`
  rw [maximumf_apply, broadcast_apply, addf_apply, feat_apply, bias_apply, Ideal.ofBits_def, Ideal.ofBits_zero_f32]
  -- term by term of the sum over the feature `d`: the first product plus the node's own row, times the transposed weight
  refine congrArg (fun s => max (s + b (ix2 (0 : Fin 1) h)) 0) (Finset.sum_congr rfl fun d _ => ?_)
  rw [addf_apply, agg_apply, transpose_w_apply]

end Cert.KernelIdeal.Tile

end
-- ==== Proof.KRegion0.lean ====
/-
  The first region's output array: every row tile's block is the layer of the argument arrays on that tile,
  and the 128 blocks tile the array.
-/
import proofs.«404367_j83356725281276_3_alg».proof.Proof.Gen.KernelIdeal.Frame
import proofs.«404367_j83356725281276_3_alg».proof.Proof.Spec
import proofs.«404367_j83356725281276_3_alg».proof.Proof.KLayer
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's arrays as it finds them, at their literal types. -/
abbrev adjA (c : Dev nD) : Vec Ideal S16384x16384 .f32 := V c main_arg1
abbrev xA (c : Dev nD) : Vec Ideal S16384x64 .f32 := V c main_arg0
abbrev wA (c : Dev nD) : Vec Ideal S64x64 .f32 := V c main_arg3
abbrev bA (c : Dev nD) : Vec Ideal S1x64 .f32 := V c main_v0

/-! ## What the body leaves in the output's block, for any contents of its operands

The body stores once, through the whole block; what it stores is the tile's arithmetic of the four operands it
loaded whole and of the 128 rows of the second operand that start at the row offset of the point. -/

theorem hz : (![0, 0] : Fin 2 → Nat) = fun _ => 0 := funext fun a => by fin_cases a <;> rfl

theorem out_eq {F : FTy → Type} [FloatOps F] (c : Dev nD) (i : grid0.Coords)
    (arg1 : Memref sig .tc .vmem S128x16384 .f32) (harg1 : arg1.IsWhole)
    (arg2 : Memref sig .tc .vmem S16384x64 .f32) (harg2 : arg2.IsWhole)
    (arg3 : Memref sig .tc .vmem S64x64 .f32) (harg3 : arg3.IsWhole)
    (arg4 : Memref sig .tc .vmem S1x64 .f32) (harg4 : arg4.IsWhole)
    (arg5 : Memref sig .tc .vmem S128x64 .f32) (harg5 : arg5.IsWhole)
    (x0 : Vec F S128x16384 .f32) (x1 : Vec F S16384x64 .f32) (x2 : Vec F S64x64 .f32) (x3 : Vec F S1x64 .f32) :
    out0_A_4 c i arg1 harg1 arg2 harg2 arg3 harg3 arg4 harg4 arg5 harg5 x0 x1 x2 x3
      = k0_pay1 x0 x1 (View.ld x1 (Rect.unit (s := S16384x64) (k0_off1 i) S128x64.size (k0_off1_inb i))) x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S128x16384) hz, View.ld_unit_zero (S := S16384x64) hz, View.ld_unit_zero (S := S64x64) hz,
    View.ld_unit_zero (S := S1x64) hz]

/-! ## The grid's index maps, decided once over its 128 points -/

/-- The grid has one axis, and a point's coordinate on it is the point's number. -/
theorem coord_val : ∀ t : Fin cfg0.N, ((grid0.coords t) 0).val = t.val :=
  (by decide +kernel : ∀ t : Fin grid0.N, ((grid0.coords t) 0).val = t.val)

/-- The adjacency window's block at point `t` is block `(t, 0)`: rows `128 t …`, every column. -/
theorem index_adj : ∀ t : Fin cfg0.N, win0_0.index t 0 = t.val ∧ win0_0.index t 1 = 0 :=
  (by decide +kernel : ∀ t : Fin grid0.N, win0_0.index t 0 = t.val ∧ win0_0.index t 1 = 0)
/-- The features, the weights and the bias row are each one block, `(0, 0)`, at every point. -/
theorem index_x : ∀ t : Fin cfg0.N, win0_1.index t 0 = 0 ∧ win0_1.index t 1 = 0 :=
  (by decide +kernel : ∀ t : Fin grid0.N, win0_1.index t 0 = 0 ∧ win0_1.index t 1 = 0)
theorem index_w : ∀ t : Fin cfg0.N, win0_2.index t 0 = 0 ∧ win0_2.index t 1 = 0 :=
  (by decide +kernel : ∀ t : Fin grid0.N, win0_2.index t 0 = 0 ∧ win0_2.index t 1 = 0)
theorem index_b : ∀ t : Fin cfg0.N, win0_3.index t 0 = 0 ∧ win0_3.index t 1 = 0 :=
  (by decide +kernel : ∀ t : Fin grid0.N, win0_3.index t 0 = 0 ∧ win0_3.index t 1 = 0)
/-- The output window's block at point `t` is block `(t, 0)`: rows `128 t …` of the 64 features. -/
theorem index_out : ∀ t : Fin cfg0.N, win0_4.index t 0 = t.val ∧ win0_4.index t 1 = 0 :=
  (by decide +kernel : ∀ t : Fin grid0.N, win0_4.index t 0 = t.val ∧ win0_4.index t 1 = 0)

/-! ## The input blocks at an index -/

/-- Row `p` of the adjacency block at point `t` is row `128 t + p` of the adjacency. -/
theorem adj_blk (c : Dev nD) (t : Fin cfg0.N) (p : Fin 128) (k : Fin 16384) (n : Fin 16384)
    (hn : n.val = 128 * t.val + p.val) :
    (iblk0 V c 0 t : Vec Ideal S128x16384 .f32) (ix2 p k) = adjA V c (ix2 n k) := by
  unfold iblk0
  rw [View.read_apply]
  show adjA V c ((win0_0.rect t).emb (ix2 p k)) = adjA V c (ix2 n k)
  refine congrArg (adjA V c) (Shape.idx_ext₂ ?_ ?_)
  · rw [win0_0.rect_emb_val t (ix2 p k) 0, (index_adj t).1]
    show t.val * 128 + p.val = n.val
    omega
  · rw [win0_0.rect_emb_val t (ix2 p k) 1, (index_adj t).2]
    show 0 * 16384 + k.val = k.val
    omega

/-- The feature window's one block is the whole feature array. -/
theorem x_blk (c : Dev nD) (t : Fin cfg0.N) : (iblk0 V c 1 t : Vec Ideal S16384x64 .f32) = xA V c := by
  funext y
  unfold iblk0
  rw [View.read_apply]
  show xA V c ((win0_1.rect t).emb y) = xA V c y
  refine congrArg (xA V c) (Shape.idx_ext₂ ?_ ?_)
  · exact win0_1.rect_emb_val_of_index_zero t 0 (index_x t).1 y
  · exact win0_1.rect_emb_val_of_index_zero t 1 (index_x t).2 y

/-- The weight window's one block is the whole weight matrix. -/
theorem w_blk (c : Dev nD) (t : Fin cfg0.N) : (iblk0 V c 2 t : Vec Ideal S64x64 .f32) = wA V c := by
  funext y
  unfold iblk0
  rw [View.read_apply]
  show wA V c ((win0_2.rect t).emb y) = wA V c y
  refine congrArg (wA V c) (Shape.idx_ext₂ ?_ ?_)
  · exact win0_2.rect_emb_val_of_index_zero t 0 (index_w t).1 y
  · exact win0_2.rect_emb_val_of_index_zero t 1 (index_w t).2 y

/-- The bias window's one block is the whole bias row. -/
theorem b_blk (c : Dev nD) (t : Fin cfg0.N) : (iblk0 V c 3 t : Vec Ideal S1x64 .f32) = bA V c := by
  funext y
  unfold iblk0
  rw [View.read_apply]
  show bA V c ((win0_3.rect t).emb y) = bA V c y
  refine congrArg (bA V c) (Shape.idx_ext₂ ?_ ?_)
  · exact win0_3.rect_emb_val_of_index_zero t 0 (index_b t).1 y
  · exact win0_3.rect_emb_val_of_index_zero t 1 (index_b t).2 y

/-- The node's own rows: the 128 rows of the features the body loads at point `t` start at row `128 t`. -/
theorem self_rows (x : Vec Ideal S16384x64 .f32) (t : Fin cfg0.N) (p : Fin 128) (d : Fin 64) (n : Fin 16384)
    (hn : n.val = 128 * t.val + p.val) :
    View.ld x (Rect.unit (s := S16384x64) (k0_off1 (grid0.coords t)) S128x64.size (k0_off1_inb (grid0.coords t))) (ix2 p d)
      = x (ix2 n d) := by
  refine congrArg x (Shape.idx_ext₂ ?_ ?_)
  · show k0_off1 (grid0.coords t) 0 + 1 * p.val = n.val
    rw [k0_off1_eq, coord_val t]
    show 128 * t.val + 1 * p.val = n.val
    omega
  · show k0_off1 (grid0.coords t) 1 + 1 * d.val = d.val
    rw [k0_off1_eq]
    show 0 + 1 * d.val = d.val
    omega

/-! ## What point `t` leaves in the output's block -/

/-- The bias as a vector over the features. -/
abbrev biasRow (c : Dev nD) : Cert.Gnn.SD.Idx → EReal :=
  fun i => bA V c (ix2 (0 : Fin 1) (⟨(i 0).val, (i 0).isLt⟩ : Fin 64))

/-- The body's value at point `t`, row `p` of the tile and feature `h`, is the layer at node `128 t + p`. -/
theorem tile_value (c : Dev nD) (t : Fin cfg0.N) (p : Fin 128) (h : Fin 64) (n : Fin 16384)
    (hn : n.val = 128 * t.val + p.val) :
    k0_pay1 (F := Ideal) (iblk0 V c 0 t) (iblk0 V c 1 t)
        (View.ld (iblk0 V c 1 t) (Rect.unit (s := S16384x64) (k0_off1 (grid0.coords t)) S128x64.size (k0_off1_inb (grid0.coords t))))
        (iblk0 V c 2 t) (iblk0 V c 3 t) (ix2 p h)
      = Cert.Gnn.layer (adjA V c) (xA V c) (wA V c) (biasRow V c) (ix2 n h) := by
  rw [x_blk V c t, w_blk V c t, b_blk V c t, Cert.KernelIdeal.Tile.k0_pay1_apply]
  unfold Cert.Gnn.layer
  simp only [adj_blk V c t p _ n hn, self_rows (xA V c) t p _ n hn]

/-- The same over any index `j` of the tile and any index `i` of the array that sits `128 t` rows below it. -/
theorem tile_value_at (c : Dev nD) (t : Fin cfg0.N) (j : S128x64.Idx) (i : S16384x64.Idx)
    (h0 : (i 0).val = 128 * t.val + (j 0).val) (h1 : (i 1).val = (j 1).val) :
    k0_pay1 (F := Ideal) (iblk0 V c 0 t) (iblk0 V c 1 t)
        (View.ld (iblk0 V c 1 t) (Rect.unit (s := S16384x64) (k0_off1 (grid0.coords t)) S128x64.size (k0_off1_inb (grid0.coords t))))
        (iblk0 V c 2 t) (iblk0 V c 3 t) j
      = Cert.Gnn.layer (adjA V c) (xA V c) (wA V c) (biasRow V c) i := by
  obtain ⟨p, h, rfl⟩ : ∃ (p : Fin 128) (h : Fin 64), j = ix2 p h := ⟨j 0, j 1, eq_ix2 j⟩
  obtain ⟨n, h', rfl⟩ : ∃ (n : Fin 16384) (h' : Fin 64), i = ix2 n h' := ⟨i 0, i 1, eq_ix2 i⟩
  obtain rfl : h' = h := Fin.ext h1
  exact tile_value V c t p h' n h0

/-- What point `t` writes back is its block of the layer of the whole arrays. -/
theorem flushed_eq (c : Dev nD) (t : Fin cfg0.N) :
    (dat0 V c).flushed 4 t
      = ((cfg0.win 4).blk t).view.read (Elt Ideal) (Cert.Gnn.layer (adjA V c) (xA V c) (wA V c) (biasRow V c)) := by
  show (cfg0.win 4).cut (grid0.coords t) ((dat0 V c).after 4 t) = _
  rw [after0_4]
  unfold outsAt0
  rw [out_eq c (grid0.coords t) (ms0_0 t) (hs0_0 t) (ms0_1 t) (hs0_1 t) (ms0_2 t) (hs0_2 t) (ms0_3 t) (hs0_3 t)
    (ms0_4 t) (hs0_4 t) (iblk0 V c 0 t) (iblk0 V c 1 t) (iblk0 V c 2 t) (iblk0 V c 3 t)]
  funext y
  rw [View.read_apply]
  refine tile_value_at V c t (win0_4.xinj (grid0.coords t) y) ((win0_4.rect t).emb y) ?_ ?_
  · rw [win0_4.rect_emb_val t y 0, (index_out t).1]
    show t.val * 128 + (y 0).val = 128 * t.val + (y 0).val
    omega
  · rw [win0_4.rect_emb_val t y 1, (index_out t).2]
    show 0 * 64 + (y 1).val = (y 1).val
    omega

/-! ## The 128 blocks tile the array -/

/-- Node `n` lies in the block of point `n / 128`, and every point writes its block back. -/
theorem covered (i : S16384x64.Idx) :
    ∃ t : Fin cfg0.N, (cfg0.win 4).flush t = true ∧ i ∈ ((cfg0.win 4).blk t).view.set := by
  have hi : (i 0).val < 16384 := (i 0).isLt
  have hj : (i 1).val < 64 := (i 1).isLt
  have hN : cfg0.N = 128 := N_0
  have hlt : (i 0).val / 128 < cfg0.N := by rw [hN]; omega
  refine ⟨⟨(i 0).val / 128, hlt⟩, flush0_4 _, ?_⟩
  show i ∈ ((View.whole main_v1).slice (win0_4.rect ⟨(i 0).val / 128, hlt⟩)).set
  rw [View.set_slice_whole, Rect.mem_set_unit]
  intro a
  match a with
  | ⟨0, _⟩ =>
    show win0_4.index ⟨(i 0).val / 128, hlt⟩ 0 * 128 ≤ (i 0).val
      ∧ (i 0).val < win0_4.index ⟨(i 0).val / 128, hlt⟩ 0 * 128 + 128
    rw [(index_out ⟨(i 0).val / 128, hlt⟩).1]
    show (i 0).val / 128 * 128 ≤ (i 0).val ∧ (i 0).val < (i 0).val / 128 * 128 + 128
    omega
  | ⟨1, _⟩ =>
    show win0_4.index ⟨(i 0).val / 128, hlt⟩ 1 * 64 ≤ (i 1).val
      ∧ (i 1).val < win0_4.index ⟨(i 0).val / 128, hlt⟩ 1 * 64 + 64
    rw [(index_out ⟨(i 0).val / 128, hlt⟩).2]
    omega

/-- After the region its output array holds the layer of the arrays it was entered with. -/
theorem final0 (c : Dev nD) :
    (dat0 V c).arrAt 4 cfg0.N
      = Cert.Gnn.layer (adjA V c) (xA V c) (wA V c) (fun i => bA V c (ix2 (0 : Fin 1) (⟨(i 0).val, (i 0).isLt⟩ : Fin 64))) :=
  (dat0 V c).arrAt_eq_of_cover 4 (Cert.Gnn.layer (adjA V c) (xA V c) (wA V c) (biasRow V c))
    (fun t _ => flushed_eq V c t) (fun i => covered i)

end Cert.KernelIdeal.Region0

end
-- ==== Proof.KRegion1.lean ====
/-
  The second region's output array: half `c` of it holds zero plus, tile after tile, the one-hot readout of the
  layer's rows over the tiles `64 · c … 64 · c + 63`.
-/
import proofs.«404367_j83356725281276_3_alg».proof.Proof.Gen.KernelIdeal.Frame
import proofs.«404367_j83356725281276_3_alg».proof.Proof.Spec
import proofs.«404367_j83356725281276_3_alg».proof.Proof.KLayer
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The region's arrays as it finds them, at their literal types. -/
abbrev adjA (c : Dev nD) : Vec Ideal S16384x16384 .f32 := V c main_arg1
abbrev yA (c : Dev nD) : Vec Ideal S16384x64 .f32 := V c main_v1
abbrev wA (c : Dev nD) : Vec Ideal S64x64 .f32 := V c main_arg5
abbrev bA (c : Dev nD) : Vec Ideal S1x64 .f32 := V c main_v2
abbrev idA (c : Dev nD) : Vec Ideal S1x16384 .i32 := V c main_v3

/-! ## What a point leaves in the output block, as values -/

theorem hz3 : (![0, 0, 0] : Fin 3 → Nat) = fun _ => 0 := funext fun a => by fin_cases a <;> rfl
theorem hz2 : (![0, 0] : Fin 2 → Nat) = fun _ => 0 := funext fun a => by fin_cases a <;> rfl

/-- The 128 rows of the feature array that a point's self loop reads: rows `k1_off1 i 0 …`. -/
abbrev selfRows (i : grid1.Coords) (x1 : Vec Ideal S16384x64 .f32) : Vec Ideal S128x64 .f32 :=
  View.ld x1 (Rect.unit (s := S16384x64) (k1_off1 i) S128x64.size (k1_off1_inb i))

/-- At a point that does not open a half the block ends at its running contents plus the tile's readout. -/
theorem out_B (c : Dev nD) (i : grid1.Coords) (a2 : Memref sig .tc .vmem S128x16384 .f32) (h2 : a2.IsWhole) (a3 : Memref sig .tc .vmem S16384x64 .f32) (h3 : a3.IsWhole) (a4 : Memref sig .tc .vmem S64x64 .f32) (h4 : a4.IsWhole) (a5 : Memref sig .tc .vmem S1x64 .f32) (h5 : a5.IsWhole) (a6 : Memref sig .tc .vmem S1x128 .i32) (h6 : a6.IsWhole) (a7 : Memref sig .tc .vmem S1x128x64 .f32) (h7 : a7.IsWhole) (hc : ¬cond1_0 i)
    (x0 : Vec Ideal S128x16384 .f32) (x1 : Vec Ideal S16384x64 .f32) (x2 : Vec Ideal S64x64 .f32) (x3 : Vec Ideal S1x64 .f32) (x4 : Vec Ideal S1x128 .i32) (xo : Vec Ideal S1x128x64 .f32) :
    out1_B_5 c i a2 h2 a3 h3 a4 h4 a5 h5 a6 h6 a7 h7 hc x0 x1 x2 x3 x4 xo
      = k1_pay1 (F := Ideal) (k1_pay3 (F := Ideal) x0 x1 (selfRows i x1) x2 x3 x4) (k1_pay4 (F := Ideal) xo) := by
  unfold out1_B_5
  rw [View.read_writes_eq_canon _ _ _ (cover1_B_5 c i a2 h2 a3 h3 a4 h4 a5 h5 a6 h6 a7 h7 hc x0 x1 x2 x3 x4 xo)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S128x16384) hz2, View.ld_unit_zero (S := S16384x64) hz2, View.ld_unit_zero (S := S64x64) hz2,
    View.ld_unit_zero (S := S1x64) hz2, View.ld_unit_zero (S := S1x128) hz2, View.ld_unit_zero (S := S1x128x64) hz3]
  rfl

/-- At a point that opens a half the block is zeroed first, so it ends at zero plus the tile's readout. -/
theorem out_A (c : Dev nD) (i : grid1.Coords) (a2 : Memref sig .tc .vmem S128x16384 .f32) (h2 : a2.IsWhole) (a3 : Memref sig .tc .vmem S16384x64 .f32) (h3 : a3.IsWhole) (a4 : Memref sig .tc .vmem S64x64 .f32) (h4 : a4.IsWhole) (a5 : Memref sig .tc .vmem S1x64 .f32) (h5 : a5.IsWhole) (a6 : Memref sig .tc .vmem S1x128 .i32) (h6 : a6.IsWhole) (a7 : Memref sig .tc .vmem S1x128x64 .f32) (h7 : a7.IsWhole) (hc : cond1_0 i)
    (x0 : Vec Ideal S128x16384 .f32) (x1 : Vec Ideal S16384x64 .f32) (x2 : Vec Ideal S64x64 .f32) (x3 : Vec Ideal S1x64 .f32) (x4 : Vec Ideal S1x128 .i32) :
    out1_A_5 c i a2 h2 a3 h3 a4 h4 a5 h5 a6 h6 a7 h7 hc x0 x1 x2 x3 x4
      = k1_pay1 (F := Ideal) (k1_pay3 (F := Ideal) x0 x1 (selfRows i x1) x2 x3 x4) (k1_pay4 (F := Ideal) (k1_pay2 (F := Ideal))) := by
  unfold out1_A_5
  rw [View.read_writes_eq_canon _ _ _ (cover1_A_5 c i a2 h2 a3 h3 a4 h4 a5 h5 a6 h6 a7 h7 hc x0 x1 x2 x3 x4)]
  unfold kernelRun1_A
  dsimp only
  sl_unfold_words
  rw [View.canon_cons_unit_zero (S := S1x128x64) hz3, View.readCov_unit_zero (S := S1x128x64) _ hz3]
  simp only [View.readAt_eq_ld, h2.read_unread, h3.read_unread, h4.read_unread, h5.read_unread, h6.read_unread,
    View.ld_unit_zero (S := S128x16384) hz2, View.ld_unit_zero (S := S16384x64) hz2, View.ld_unit_zero (S := S64x64) hz2,
    View.ld_unit_zero (S := S1x64) hz2, View.ld_unit_zero (S := S1x128) hz2]
  rfl

/-! ## The payloads at an index -/

/-- The zero block is zero everywhere. -/
theorem pay2_apply (j : S1x128x64.Idx) : k1_pay2 (F := Ideal) j = 0 := by
  show Ideal.ofBits .f32 0x00000000#32 = 0
  exact Ideal.ofBits_zero_f32

/-- The update at an index: the running block's entry plus the readout's. -/
theorem pay1_apply (r : FVec Ideal S128x64 .f32) (xo : Vec Ideal S1x128x64 .f32) (a : Fin 1) (g : Fin 128) (h : Fin 64) :
    k1_pay1 (F := Ideal) r (k1_pay4 (F := Ideal) xo) (ix3 a g h) = xo (ix3 a g h) + r (ix2 g h) := by
  unfold k1_pay1 k1_pay4
  dsimp only
  refine (shapeCast_apply _ _ (ix3 a g h) (ix2 g h) ?_).trans ?_
  · rw [Shape.rowMajor_val_two, Shape.rowMajor_val_three]
    have ha : a.val = 0 := by omega
    show g.val * 64 + h.val = (a.val * 128 + g.val) * 64 + h.val
    rw [ha]; omega
  · show shapeCast S128x64 xo _ (ix2 g h) + r (ix2 g h) = _
    refine congrArg (· + r (ix2 g h)) (shapeCast_apply _ _ (ix2 g h) (ix3 a g h) ?_)
    rw [Shape.rowMajor_val_two, Shape.rowMajor_val_three]
    have ha : a.val = 0 := by omega
    show (a.val * 128 + g.val) * 64 + h.val = g.val * 64 + h.val
    rw [ha]; omega

/-- The readout is the one-hot product with the layer's value on the tile (two identity shape casts removed). -/
theorem pay3_eq (a : Vec Ideal S128x16384 .f32) (xs : Vec Ideal S16384x64 .f32) (self : Vec Ideal S128x64 .f32)
    (w : Vec Ideal S64x64 .f32) (b : Vec Ideal S1x64 .f32) (ids : Vec Ideal S1x128 .i32) :
    k1_pay3 (F := Ideal) a xs self w b ids
      = matmul (F := Ideal) dot_S128x128_S128x64_S128x64_1_0_0_1_n_n none
          (sitofp (F := Ideal) .f32 (extui 32 (cmpi .eq (broadcastTo S128x128 ids broadcasts_S1x128_S128x128)
            (iota .tc S128x128 32 [0] iota_S128x128_d0_w32)) natLt_1_32))
          (k0_pay1 (F := Ideal) a xs self w b) (constant (F := Ideal) S128x64 .f32 0x00000000#32) := by
  unfold k1_pay3 k0_pay1
  simp only [shapeCast_self]

/-- A one-hot entry: the comparison bit widened and converted is 1 on equal words and 0 otherwise. -/
theorem onehot_entry (u v : BitVec 32) :
    (FloatOps.sitofp (F := Ideal) .f32 ((IntOp.cmpi .eq u v).setWidth 32) : EReal) = if u = v then (1 : EReal) else 0 := by
  show ((((IntOp.cmpi .eq u v).setWidth 32).toInt : ℝ) : EReal) = _
  by_cases huv : u = v
  · have e : IntOp.cmpi .eq u v = 1#1 := by subst huv; simp [IntOp.cmpi]
    rw [if_pos huv, e, show ((1#1 : BitVec 1).setWidth 32).toInt = 1 from by decide]
    simp
  · have hb : (u == v) = false := beq_eq_false_iff_ne.mpr huv
    have e : IntOp.cmpi .eq u v = 0#1 := by
      show BitVec.ofBool (u == v) = 0#1
      rw [hb]; rfl
    rw [if_neg huv, e, show ((0#1 : BitVec 1).setWidth 32).toInt = 0 from by decide]
    simp

/-- The one-hot product's operand indices, coordinate by coordinate. -/
theorem oh_lhs0 (i : S128x64.Idx) (q : dot_S128x128_S128x64_S128x64_1_0_0_1_n_n.contr.Idx) :
    (dot_S128x128_S128x64_S128x64_1_0_0_1_n_n.lhsIdx i q 0).val = (i 0).val := by
  unfold DotDims.lhsIdx
  rw [dif_neg (show ¬(0 : Fin S128x128.rank) ∈ dot_S128x128_S128x64_S128x64_1_0_0_1_n_n.lhsBatch by decide), dif_pos (show (0 : Fin S128x128.rank) ∈ dot_S128x128_S128x64_S128x64_1_0_0_1_n_n.lhsNonContracting by decide)]
  rfl
theorem oh_lhs1 (i : S128x64.Idx) (q : dot_S128x128_S128x64_S128x64_1_0_0_1_n_n.contr.Idx) :
    (dot_S128x128_S128x64_S128x64_1_0_0_1_n_n.lhsIdx i q 1).val = (q ⟨0, by decide⟩).val :=
  dot_S128x128_S128x64_S128x64_1_0_0_1_n_n.lhsIdx_val_of_single rfl i q
theorem oh_rhs0 (i : S128x64.Idx) (q : dot_S128x128_S128x64_S128x64_1_0_0_1_n_n.contr.Idx) :
    (dot_S128x128_S128x64_S128x64_1_0_0_1_n_n.rhsIdx i q 0).val = (q ⟨0, by decide⟩).val :=
  dot_S128x128_S128x64_S128x64_1_0_0_1_n_n.rhsIdx_val_of_single rfl i q
theorem oh_rhs1 (i : S128x64.Idx) (q : dot_S128x128_S128x64_S128x64_1_0_0_1_n_n.contr.Idx) :
    (dot_S128x128_S128x64_S128x64_1_0_0_1_n_n.rhsIdx i q 1).val = (i 1).val := by
  unfold DotDims.rhsIdx
  rw [dif_neg (show ¬(1 : Fin S128x64.rank) ∈ dot_S128x128_S128x64_S128x64_1_0_0_1_n_n.rhsBatch by decide), dif_pos (show (1 : Fin S128x64.rank) ∈ dot_S128x128_S128x64_S128x64_1_0_0_1_n_n.rhsNonContracting by decide)]
  rfl

/-- The readout at graph `g` and feature `h`: the rows of the tile whose id is `g`, summed. -/
theorem pay3_apply (a : Vec Ideal S128x16384 .f32) (xs : Vec Ideal S16384x64 .f32) (self : Vec Ideal S128x64 .f32)
    (w : Vec Ideal S64x64 .f32) (b : Vec Ideal S1x64 .f32) (ids : Vec Ideal S1x128 .i32) (g : Fin 128) (h : Fin 64) :
    k1_pay3 (F := Ideal) a xs self w b ids (ix2 g h)
      = ∑ j : Fin 128, (if ids (ix2 (0 : Fin 1) j) = BitVec.ofNat 32 g.val then (1 : EReal) else 0)
          * k0_pay1 (F := Ideal) a xs self w b (ix2 j h) := by
  rw [pay3_eq]
  generalize k0_pay1 (F := Ideal) a xs self w b = L
  simp only [matmul]
  rw [Ideal.matmul_constant_zero_apply, ← Equiv.sum_comp (ValueIdx.contrEquiv1 dot_S128x128_S128x64_S128x64_1_0_0_1_n_n 128 rfl rfl).symm]
  refine Finset.sum_congr rfl fun j _ => ?_
  have hj := ValueIdx.contrEquiv1_symm_val dot_S128x128_S128x64_S128x64_1_0_0_1_n_n 128 rfl rfl j
  have el : dot_S128x128_S128x64_S128x64_1_0_0_1_n_n.lhsIdx (ix2 g h) ((ValueIdx.contrEquiv1 dot_S128x128_S128x64_S128x64_1_0_0_1_n_n 128 rfl rfl).symm j) = ix2 g j := funext fun x => Fin.ext (by
    match x with
    | ⟨0, _⟩ => exact oh_lhs0 _ _
    | ⟨1, _⟩ => exact (oh_lhs1 _ _).trans hj)
  have er : dot_S128x128_S128x64_S128x64_1_0_0_1_n_n.rhsIdx (ix2 g h) ((ValueIdx.contrEquiv1 dot_S128x128_S128x64_S128x64_1_0_0_1_n_n 128 rfl rfl).symm j) = ix2 j h := funext fun x => Fin.ext (by
    match x with
    | ⟨0, _⟩ => exact (oh_rhs0 _ _).trans hj
    | ⟨1, _⟩ => exact oh_rhs1 _ _)
  rw [el, er]
  refine congrArg (· * L (ix2 j h)) ?_
  show FloatOps.sitofp (F := Ideal) .f32 ((IntOp.cmpi .eq (broadcastTo S128x128 ids broadcasts_S1x128_S128x128 (ix2 g j))
    (iota .tc S128x128 32 [0] iota_S128x128_d0_w32 (ix2 g j))).setWidth 32) = _
  rw [iota_single_apply, broadcastTo_apply ids broadcasts_S1x128_S128x128 (ix2 g j) (ix2 (0 : Fin 1) j) (fun x => by
    match x with
    | ⟨0, _⟩ => rfl
    | ⟨1, _⟩ => rfl)]
  exact onehot_entry _ _

/-- One step at an index: the running entry plus the tile's readout. -/
theorem step_apply (x0 : Vec Ideal S128x16384 .f32) (x1 : Vec Ideal S16384x64 .f32) (self : Vec Ideal S128x64 .f32)
    (x2 : Vec Ideal S64x64 .f32) (x3 : Vec Ideal S1x64 .f32) (x4 : Vec Ideal S1x128 .i32) (xo : Vec Ideal S1x128x64 .f32)
    (a : Fin 1) (g : Fin 128) (h : Fin 64) :
    k1_pay1 (F := Ideal) (k1_pay3 (F := Ideal) x0 x1 self x2 x3 x4) (k1_pay4 (F := Ideal) xo) (ix3 a g h)
      = xo (ix3 a g h) + ∑ j : Fin 128, (if x4 (ix2 (0 : Fin 1) j) = BitVec.ofNat 32 g.val then (1 : EReal) else 0)
          * k0_pay1 (F := Ideal) x0 x1 self x2 x3 (ix2 j h) := by
  rw [pay1_apply, pay3_apply]

/-! ## The blocks a point works on, read in the arrays -/

/-- The input windows' blocks at a point, at their literal types. -/
abbrev adjB (c : Dev nD) (t : Fin cfg1.N) : Vec Ideal S128x16384 .f32 := iblk1 V c 0 t
abbrev yB (c : Dev nD) (t : Fin cfg1.N) : Vec Ideal S16384x64 .f32 := iblk1 V c 1 t
abbrev wB (c : Dev nD) (t : Fin cfg1.N) : Vec Ideal S64x64 .f32 := iblk1 V c 2 t
abbrev bB (c : Dev nD) (t : Fin cfg1.N) : Vec Ideal S1x64 .f32 := iblk1 V c 3 t
abbrev idB (c : Dev nD) (t : Fin cfg1.N) : Vec Ideal S1x128 .i32 := iblk1 V c 4 t

/-- The windows' index maps over the grid: at point `t` the adjacency window is on row block `t`, the id window on
    column block `t`, the output window on half `t / 64`, the whole-array windows on block 0, and the self loop's
    rows start at row `128 · t`. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = t.val
    ∧ win1_5.index t (0 : Fin 3) = t.val / 64 ∧ win1_5.index t (1 : Fin 3) = 0 ∧ win1_5.index t (2 : Fin 3) = 0
    ∧ k1_off1 (grid1.coords t) (0 : Fin 2) = 128 * t.val ∧ k1_off1 (grid1.coords t) (1 : Fin 2) = 0 :=
  (by decide +kernel : ∀ t : Fin grid1.N, _)

/-- For `t < 128` row `j` of tile `t` is row `128 · t + j`. -/
theorem row_val (t : Nat) (ht : t < 128) (j : Fin 128) : (Cert.Gnn.row t j).val = 128 * t + j.val := by
  show (128 * t + j.val) % 16384 = _
  have := j.isLt
  omega

theorem adjB_apply (c : Dev nD) (t : Fin cfg1.N) (p : Fin 128) (k : Fin 16384) :
    adjB V c t (ix2 p k) = adjA V c (ix2 (Cert.Gnn.row t.val p) k) := by
  have hN : t.val < 128 := lt_of_lt_of_eq t.isLt (show cfg1.N = 128 from N_1)
  obtain ⟨e0, e1, -⟩ := idx_facts t
  show ((cfg1.win 0).blk t).view.read (Elt Ideal) (V c (Pipeline.arrRef spec1 0)) (ix2 p k) = _
  rw [View.read_apply]
  show V c main_arg1 (((cfg1.win 0).blk t).view.emb (ix2 p k)) = V c main_arg1 (ix2 (Cert.Gnn.row t.val p) k)
  refine congrArg (V c main_arg1) (funext fun a => Fin.ext ?_)
  match a with
  | ⟨0, _⟩ =>
    show win1_0.index t (0 : Fin 2) * 128 + 1 * p.val = (Cert.Gnn.row t.val p).val
    rw [e0, row_val t.val hN p]; omega
  | ⟨1, _⟩ =>
    show win1_0.index t (1 : Fin 2) * 16384 + 1 * k.val = k.val
    rw [e1]; omega

theorem yB_eq (c : Dev nD) (t : Fin cfg1.N) : yB V c t = yA V c := by
  obtain ⟨-, -, e0, e1, -⟩ := idx_facts t
  funext j
  show ((cfg1.win 1).blk t).view.read (Elt Ideal) (V c (Pipeline.arrRef spec1 1)) j = _
  rw [View.read_apply]
  show V c main_v1 (((cfg1.win 1).blk t).view.emb j) = V c main_v1 j
  refine congrArg (V c main_v1) (funext fun a => Fin.ext ?_)
  match a with
  | ⟨0, _⟩ => show win1_1.index t (0 : Fin 2) * 16384 + 1 * (j 0).val = (j 0).val; rw [e0]; omega
  | ⟨1, _⟩ => show win1_1.index t (1 : Fin 2) * 64 + 1 * (j 1).val = (j 1).val; rw [e1]; omega

theorem wB_eq (c : Dev nD) (t : Fin cfg1.N) : wB V c t = wA V c := by
  obtain ⟨-, -, -, -, e0, e1, -⟩ := idx_facts t
  funext j
  show ((cfg1.win 2).blk t).view.read (Elt Ideal) (V c (Pipeline.arrRef spec1 2)) j = _
  rw [View.read_apply]
  show V c main_arg5 (((cfg1.win 2).blk t).view.emb j) = V c main_arg5 j
  refine congrArg (V c main_arg5) (funext fun a => Fin.ext ?_)
  match a with
  | ⟨0, _⟩ => show win1_2.index t (0 : Fin 2) * 64 + 1 * (j 0).val = (j 0).val; rw [e0]; omega
  | ⟨1, _⟩ => show win1_2.index t (1 : Fin 2) * 64 + 1 * (j 1).val = (j 1).val; rw [e1]; omega

theorem bB_eq (c : Dev nD) (t : Fin cfg1.N) : bB V c t = bA V c := by
  obtain ⟨-, -, -, -, -, -, e0, e1, -⟩ := idx_facts t
  funext j
  show ((cfg1.win 3).blk t).view.read (Elt Ideal) (V c (Pipeline.arrRef spec1 3)) j = _
  rw [View.read_apply]
  show V c main_v2 (((cfg1.win 3).blk t).view.emb j) = V c main_v2 j
  refine congrArg (V c main_v2) (funext fun a => Fin.ext ?_)
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

theorem idB_apply (c : Dev nD) (t : Fin cfg1.N) (j : Fin 128) :
    idB V c t (ix2 (0 : Fin 1) j) = idA V c (ix2 (0 : Fin 1) (Cert.Gnn.row t.val j)) := by
  have hN : t.val < 128 := lt_of_lt_of_eq t.isLt (show cfg1.N = 128 from N_1)
  obtain ⟨-, -, -, -, -, -, -, -, e0, e1, -⟩ := idx_facts t
  show ((cfg1.win 4).blk t).view.read (Elt Ideal) (V c (Pipeline.arrRef spec1 4)) (ix2 (0 : Fin 1) j) = _
  rw [View.read_apply]
  show V c main_v3 (((cfg1.win 4).blk t).view.emb (ix2 (0 : Fin 1) j)) = V c main_v3 (ix2 (0 : Fin 1) (Cert.Gnn.row t.val j))
  refine congrArg (V c main_v3) (funext fun a => Fin.ext ?_)
  match a with
  | ⟨0, _⟩ => show win1_4.index t (0 : Fin 2) * 1 + 1 * 0 = 0; rw [e0]
  | ⟨1, _⟩ =>
    show win1_4.index t (1 : Fin 2) * 128 + 1 * j.val = (Cert.Gnn.row t.val j).val
    rw [e1, row_val t.val hN j]; omega

theorem self_apply (c : Dev nD) (t : Fin cfg1.N) (p : Fin 128) (d : Fin 64) :
    selfRows (grid1.coords t) (yB V c t) (ix2 p d) = yA V c (ix2 (Cert.Gnn.row t.val p) d) := by
  have hN : t.val < 128 := lt_of_lt_of_eq t.isLt (show cfg1.N = 128 from N_1)
  obtain ⟨-, -, -, -, -, -, -, -, -, -, -, -, -, e0, e1⟩ := idx_facts t
  rw [yB_eq]
  show yA V c ((Rect.unit (s := S16384x64) (k1_off1 (grid1.coords t)) S128x64.size (k1_off1_inb (grid1.coords t))).idx (ix2 p d)) = _
  refine congrArg (yA V c) (funext fun a => Fin.ext ?_)
  match a with
  | ⟨0, _⟩ =>
    show k1_off1 (grid1.coords t) (0 : Fin 2) + 1 * p.val = (Cert.Gnn.row t.val p).val
    rw [e0, row_val t.val hN p]; omega
  | ⟨1, _⟩ =>
    show k1_off1 (grid1.coords t) (1 : Fin 2) + 1 * d.val = d.val
    rw [e1]; omega

/-- The readout computed from blocks that read the arrays as the blocks of tile `t` do is the tile sum of tile `t`. -/
theorem tile_of_blocks (adj : Vec Ideal S16384x16384 .f32) (y : Vec Ideal S16384x64 .f32) (w : Vec Ideal S64x64 .f32)
    (b : Vec Ideal S1x64 .f32) (ids : Vec Ideal S1x16384 .i32) (t : Nat)
    (a : Vec Ideal S128x16384 .f32) (xs : Vec Ideal S16384x64 .f32) (self : Vec Ideal S128x64 .f32)
    (w' : Vec Ideal S64x64 .f32) (b' : Vec Ideal S1x64 .f32) (ids' : Vec Ideal S1x128 .i32)
    (ha : ∀ (p : Fin 128) (k : Fin 16384), a (ix2 p k) = adj (ix2 (Cert.Gnn.row t p) k)) (hxs : xs = y)
    (hself : ∀ (p : Fin 128) (d : Fin 64), self (ix2 p d) = y (ix2 (Cert.Gnn.row t p) d)) (hw : w' = w) (hb : b' = b)
    (hids : ∀ j : Fin 128, ids' (ix2 (0 : Fin 1) j) = ids (ix2 (0 : Fin 1) (Cert.Gnn.row t j)))
    (g : Fin 128) (h : Fin 64) :
    ∑ j : Fin 128, (if ids' (ix2 (0 : Fin 1) j) = BitVec.ofNat 32 g.val then (1 : EReal) else 0)
        * k0_pay1 (F := Ideal) a xs self w' b' (ix2 j h)
      = Cert.Gnn.tileSum (fun i => ids (ix2 (0 : Fin 1) (⟨(i 0).val, (i 0).isLt⟩ : Fin 16384)))
          (Cert.Gnn.layer adj y w (fun i => b (ix2 (0 : Fin 1) (⟨(i 0).val, (i 0).isLt⟩ : Fin 64)))) t g h := by
  subst hxs hw hb
  unfold Cert.Gnn.tileSum
  refine Finset.sum_congr rfl fun j _ => ?_
  rw [hids j, Cert.KernelIdeal.Tile.k0_pay1_apply]
  simp only [ha, hself]
  rfl

/-! ## The fold over a half -/

/-- The graph ids and the layer's value in the vocabulary of the closed form. -/
abbrev idxS (c : Dev nD) : Cert.Gnn.SN.Idx → BitVec 32 :=
  fun i => idA V c (ix2 (0 : Fin 1) (⟨(i 0).val, (i 0).isLt⟩ : Fin 16384))
abbrev yS (c : Dev nD) : Cert.Gnn.SNxD.Idx → EReal :=
  Cert.Gnn.layer (adjA V c) (yA V c) (wA V c) (fun i => bA V c (ix2 (0 : Fin 1) (⟨(i 0).val, (i 0).isLt⟩ : Fin 64)))

/-- What tile `n` adds to the output block, entry by entry. -/
def addend (c : Dev nD) (n : Nat) : S1x128x64.Idx → EReal :=
  fun i => Cert.Gnn.tileSum (idxS V c) (yS V c) n (i 1) (i 2)

/-- The readout a point computes from its blocks is the tile sum of tile `t`. -/
theorem readout_eq (c : Dev nD) (t : Fin cfg1.N) (g : Fin 128) (q : Fin 64) :
    ∑ j : Fin 128, (if idB V c t (ix2 (0 : Fin 1) j) = BitVec.ofNat 32 g.val then (1 : EReal) else 0)
        * k0_pay1 (F := Ideal) (adjB V c t) (yB V c t) (selfRows (grid1.coords t) (yB V c t)) (wB V c t) (bB V c t) (ix2 j q)
      = Cert.Gnn.tileSum (idxS V c) (yS V c) t.val g q :=
  tile_of_blocks (adjA V c) (yA V c) (wA V c) (bA V c) (idA V c) t.val (adjB V c t) (yB V c t)
    (selfRows (grid1.coords t) (yB V c t)) (wB V c t) (bB V c t) (idB V c t)
    (adjB_apply V c t) (yB_eq V c t) (self_apply V c t) (wB_eq V c t) (bB_eq V c t) (idB_apply V c t) g q

/-- A point that opens a half leaves zero plus its tile's addend. -/
theorem outs_A (c : Dev nD) (t : Fin cfg1.N) (h0 : t.val % 64 = 0) (i : S1x128x64.Idx) :
    outsAt1 V c t.val t.isLt i = 0 + addend V c t.val i := by
  obtain ⟨a, g, q, rfl⟩ : ∃ a g q, i = ix3 a g q := ⟨_, _, _, eq_ix3 i⟩
  rw [outsAt1_A V c t h0]
  refine (congrFun (out_A c (grid1.coords t) (ms1_0 t) (hs1_0 t) (ms1_1 t) (hs1_1 t) (ms1_2 t) (hs1_2 t) (ms1_3 t) (hs1_3 t)
    (ms1_4 t) (hs1_4 t) (ms1_5 t) (hs1_5 t) ((hcond1_0 t).mpr h0) (adjB V c t) (yB V c t) (wB V c t) (bB V c t) (idB V c t))
    (ix3 a g q)).trans ?_
  rw [step_apply, pay2_apply]
  exact congrArg (0 + ·) (readout_eq V c t g q)

/-- Any other point adds its tile's addend to what the point before left. -/
theorem outs_B (c : Dev nD) (t : Fin cfg1.N) (h0 : ¬t.val % 64 = 0) (i : S1x128x64.Idx) :
    outsAt1 V c t.val t.isLt i
      = outsAt1 V c (t.val - 1) (Nat.lt_of_le_of_lt (Nat.sub_le _ _) t.isLt) i + addend V c t.val i := by
  obtain ⟨a, g, q, rfl⟩ : ∃ a g q, i = ix3 a g q := ⟨_, _, _, eq_ix3 i⟩
  rw [outsAt1_B V c t h0]
  refine (congrFun (out_B c (grid1.coords t) (ms1_0 t) (hs1_0 t) (ms1_1 t) (hs1_1 t) (ms1_2 t) (hs1_2 t) (ms1_3 t) (hs1_3 t)
    (ms1_4 t) (hs1_4 t) (ms1_5 t) (hs1_5 t) (fun hh => h0 ((hcond1_0 t).mp hh)) (adjB V c t) (yB V c t) (wB V c t) (bB V c t) (idB V c t)
    (outsAt1 V c (t.val - 1) (Nat.lt_of_le_of_lt (Nat.sub_le _ _) t.isLt))) (ix3 a g q)).trans ?_
  rw [step_apply]
  exact congrArg (outsAt1 V c (t.val - 1) (Nat.lt_of_le_of_lt (Nat.sub_le _ _) t.isLt) (ix3 a g q) + ·) (readout_eq V c t g q)

/-- After point `t` the block holds zero plus the addends of the tiles of `t`'s half up to `t`. -/
theorem outs_fold (c : Dev nD) (t : Fin cfg1.N) (i : S1x128x64.Idx) :
    outsAt1 V c t.val t.isLt i
      = 0 + ∑ s ∈ Finset.range (t.val % 64 + 1), addend V c (64 * (t.val / 64) + s) i := by
  have h' : 64 * (t.val / 64) + t.val % 64 < cfg1.N := by rw [Nat.div_add_mod]; exact t.isLt
  have e := Pipeline.eq_accAt_of_mod (N := cfg1.N) (fun n hn => outsAt1 V c n hn) 64
    (fun n _ => fun i => 0 + addend V c n i)
    (fun n _ acc => fun i => acc i + addend V c n i)
    (fun n hn h0 => funext fun i => outs_A V c ⟨n, hn⟩ h0 i)
    (fun n hn h0 => funext fun i => outs_B V c ⟨n + 1, hn⟩ h0 i)
    (by decide) t.val t.isLt h'
  refine (congrFun e i).trans ?_
  exact Pipeline.accAt_add_apply _ _ (fun _ => 0) (addend V c) (64 * (t.val / 64)) 63 (fun _ _ => rfl)
    (fun _ _ _ _ _ _ => rfl) (t.val % 64) (by omega) h' i

/-! ## From the blocks written back to the array -/

/-- A tile sum depends on its tile, graph and feature through their values only. -/
theorem tileSum_congr (idx : Cert.Gnn.SN.Idx → BitVec 32) (y : Cert.Gnn.SNxD.Idx → EReal) {n n' : Nat} {g g' : Fin 128}
    {q q' : Fin 64} (hn : n = n') (hg : g.val = g'.val) (hq : q.val = q'.val) :
    Cert.Gnn.tileSum idx y n g q = Cert.Gnn.tileSum idx y n' g' q' := by
  obtain rfl := hn; obtain rfl := Fin.ext hg; obtain rfl := Fin.ext hq; rfl

/-- The block written back at the last point of half `t / 64` is that half of the closed form. -/
theorem flushed_eq (c : Dev nD) (t : Fin cfg1.N) (hf : (cfg1.win 5).flush t = true) :
    (dat1 V c).flushed 5 t = ((cfg1.win 5).blk t).view.read (Elt Ideal) (Cert.Gnn.coreParts (idxS V c) (yS V c)) := by
  have h63 : t.val % 64 = 63 := (flush1_5 t).mp hf
  obtain ⟨-, -, -, -, -, -, -, -, -, -, e0, e1, e2, -⟩ := idx_facts t
  show (cfg1.win 5).cut (grid1.coords t) ((dat1 V c).after 5 t) = _
  rw [after1_5]
  funext i
  rw [View.read_apply]
  show outsAt1 V c t.val t.isLt i = Cert.Gnn.coreParts (idxS V c) (yS V c) (((cfg1.win 5).blk t).view.emb i)
  rw [outs_fold V c t i, h63]
  show 0 + ∑ s ∈ Finset.range 64, Cert.Gnn.tileSum (idxS V c) (yS V c) (64 * (t.val / 64) + s) (i 1) (i 2)
    = 0 + ∑ s ∈ Finset.range 64, Cert.Gnn.tileSum (idxS V c) (yS V c) (64 * ((((cfg1.win 5).blk t).view.emb i) 0).val + s)
        ((((cfg1.win 5).blk t).view.emb i) 1) ((((cfg1.win 5).blk t).view.emb i) 2)
  refine congrArg (0 + ·) (Finset.sum_congr rfl fun s _ => ?_)
  refine tileSum_congr _ _ ?_ ?_ ?_
  · have e : ((((cfg1.win 5).blk t).view.emb i) 0).val = t.val / 64 := by
      show win1_5.index t (0 : Fin 3) * 1 + 1 * (i 0).val = _
      have hi : (i 0).val < 1 := (i 0).isLt
      rw [e0]; omega
    rw [e]
  · show (i 1).val = win1_5.index t (1 : Fin 3) * 128 + 1 * (i 1).val
    rw [e1]; omega
  · show (i 2).val = win1_5.index t (2 : Fin 3) * 64 + 1 * (i 2).val
    rw [e2]; omega

/-- After the region its output array holds the two halves' accumulated one-hot readouts of the layer. -/
theorem final1 (c : Dev nD) :
    (dat1 V c).arrAt 5 cfg1.N
      = Cert.Gnn.coreParts (fun i => idA V c (ix2 (0 : Fin 1) (⟨(i 0).val, (i 0).isLt⟩ : Fin 16384)))
          (Cert.Gnn.layer (adjA V c) (yA V c) (wA V c) (fun i => bA V c (ix2 (0 : Fin 1) (⟨(i 0).val, (i 0).isLt⟩ : Fin 64)))) :=
  (dat1 V c).arrAt_eq_of_cover 5 (Cert.Gnn.coreParts (idxS V c) (yS V c)) (flushed_eq V c) fun i => by
    have hN : cfg1.N = 128 := N_1
    have hi0 : (i 0).val < 2 := (i 0).isLt
    have hi1 : (i 1).val < 128 := (i 1).isLt
    have hi2 : (i 2).val < 64 := (i 2).isLt
    obtain ⟨t, ht⟩ : ∃ t : Fin cfg1.N, t.val = 64 * (i 0).val + 63 := ⟨⟨64 * (i 0).val + 63, by rw [hN]; omega⟩, rfl⟩
    obtain ⟨-, -, -, -, -, -, -, -, -, -, e0, e1, e2, -⟩ := idx_facts t
    refine ⟨t, (flush1_5 t).mpr (by rw [ht]; omega), ?_⟩
    show i ∈ ((View.whole main_v4).slice (win1_5.rect t)).set
    rw [View.set_slice_whole, Rect.mem_set_unit]
    intro a
    match a with
    | ⟨0, _⟩ =>
      show win1_5.index t (0 : Fin 3) * 1 ≤ (i 0).val ∧ (i 0).val < win1_5.index t (0 : Fin 3) * 1 + 1
      rw [e0, ht]; omega
    | ⟨1, _⟩ =>
      show win1_5.index t (1 : Fin 3) * 128 ≤ (i 1).val ∧ (i 1).val < win1_5.index t (1 : Fin 3) * 128 + 128
      rw [e1]; omega
    | ⟨2, _⟩ =>
      show win1_5.index t (2 : Fin 3) * 64 ≤ (i 2).val ∧ (i 2).val < win1_5.index t (2 : Fin 3) * 64 + 64
      rw [e2]; omega

end Cert.KernelIdeal.Region1

end
-- ==== Proof.KGlue.lean ====
/-
  The kernel's result buffer as a function of the launch arrays.
  The buffers at each boundary of the program are a fold: a stretch of host operations rewrites the buffers it writes,
  a region leaves its output array at what its write-backs fold to and every other buffer as it found it. Read back
  through the fold, no argument array is ever written; the bias and the graph ids enter the regions as rows
  (`[64] → [1, 64]`, `[16384] → [1, 16384]`); the first region's output is one layer of the launch arrays, the
  second region's output the two halves of the one-hot readout of the second layer; the host adds the two halves
  (zero plus their sum: the kernel's arrangement of the per-graph sum) and applies the head.
-/
import proofs.«404367_j83356725281276_3_alg».proof.Proof.Gen.KernelIdeal.Frame
import proofs.«404367_j83356725281276_3_alg».proof.Proof.Spec
import proofs.«404367_j83356725281276_3_alg».proof.Proof.KRegion0
import proofs.«404367_j83356725281276_3_alg».proof.Proof.KRegion1
import Idealize.ShloMosaic.PureOps.Ideal.Laws
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## A buffer that a stretch or a region does not write keeps its contents -/

/-- The first stretch writes only the bias row. -/
theorem W1_keep (c : Dev nD) (b : Ref sig .tc) (h0 : b ≠ main_v0) :
    W1 m ρ c (Proc.devRef .tc b) = W0 m ρ c (Proc.devRef .tc b) := by
  show StableHlo.after hostOps0 (W0 m ρ c) (Proc.devRef .tc b) = _
  simp only [hostOps0, StableHlo.after_cons, StableHlo.after_nil]
  exact StableHlo.reshape_result_ne (h := h0) ..

/-- The second stretch writes only the second bias row and the id row. -/
theorem W3_keep (c : Dev nD) (b : Ref sig .tc) (h2 : b ≠ main_v2) (h3 : b ≠ main_v3) :
    W3 m ρ c (Proc.devRef .tc b) = W2 m ρ c (Proc.devRef .tc b) := by
  show StableHlo.after hostOps1 (W2 m ρ c) (Proc.devRef .tc b) = _
  simp only [hostOps1, StableHlo.after_cons, StableHlo.after_nil]
  rw [StableHlo.reshape_result_ne (h := h3) .., StableHlo.reshape_result_ne (h := h2) ..]

/-- An input array of the first region leaves it as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- An input array of the second region leaves it as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-! ## The launch arrays at each boundary -/

/-- Before the first region: as launched. -/
theorem W1_arg (c : Dev nD) (b : Ref sig .tc) (h0 : b ≠ main_v0) :
    W1 m ρ c (Proc.devRef .tc b) = m ((c : Thread nD τ).loc b) := (W1_keep m ρ c b h0).trans rfl

/-- After the first region, a buffer that is none of its arrays: as launched. -/
theorem W2_arg (c : Dev nD) (b : Ref sig .tc) (h0 : b ≠ main_v0) (hr : ∀ w, Pipeline.arrRef spec0 w ≠ b) :
    W2 m ρ c (Proc.devRef .tc b) = m ((c : Thread nD τ).loc b) :=
  (W2_of_ne m ρ c b hr).trans (W1_arg m ρ c b h0)

/-- Before the second region, the same. -/
theorem W3_arg (c : Dev nD) (b : Ref sig .tc) (h0 : b ≠ main_v0) (h2 : b ≠ main_v2) (h3 : b ≠ main_v3)
    (hr : ∀ w, Pipeline.arrRef spec0 w ≠ b) : W3 m ρ c (Proc.devRef .tc b) = m ((c : Thread nD τ).loc b) :=
  (W3_keep m ρ c b h2 h3).trans (W2_arg m ρ c b h0 hr)

/-- After the second region, a buffer that is none of either region's arrays: as launched. -/
theorem W4_arg (c : Dev nD) (b : Ref sig .tc) (h0 : b ≠ main_v0) (h2 : b ≠ main_v2) (h3 : b ≠ main_v3)
    (hr : ∀ w, Pipeline.arrRef spec0 w ≠ b) (hr' : ∀ w, Pipeline.arrRef spec1 w ≠ b) :
    W4 m ρ c (Proc.devRef .tc b) = m ((c : Thread nD τ).loc b) :=
  (W4_of_ne m ρ c b hr').trans (W3_arg m ρ c b h0 h2 h3 hr)

/-- The adjacency, an input of both regions, is as launched when the second region is entered. -/
theorem W3_adj (c : Dev nD) : W3 m ρ c (Proc.devRef .tc main_arg1) = (m ((c : Thread nD τ).loc main_arg1)) :=
  (W3_keep m ρ c main_arg1 (by decide) (by decide)).trans
    ((W2_in m ρ c 0 rfl).trans (W1_arg m ρ c main_arg1 (by decide)))

/-! ## The first region's output: one layer of the launch arrays -/

/-- A row `[1, 64]` made from a `[64]` array reads, at `(0, h)`, the array at `h`. -/
theorem row64 (v : Vec Ideal S64 .f32) :
    (fun i : Cert.Gnn.SD.Idx => shapeCast S1x64 v shapeCasts_S64_S1x64 (ix2 (0 : Fin 1) (⟨(i 0).val, (i 0).isLt⟩ : Fin 64))) = v := by
  funext i
  rw [shapeCast_a_1a_apply]
  exact congrArg v (eq_ix1 i).symm

theorem x1_eq (c : Dev nD) : (dat0 (V1 m ρ) c).arrAt 4 cfg0.N = (Cert.Gnn.layer (m ((c : Thread nD τ).loc main_arg1)) (m ((c : Thread nD τ).loc main_arg0)) (m ((c : Thread nD τ).loc main_arg3)) (m ((c : Thread nD τ).loc main_arg4))) := by
  rw [Region0.final0 (V1 m ρ) c]
  have e1 : Region0.adjA (V1 m ρ) c = (m ((c : Thread nD τ).loc main_arg1)) := W1_arg m ρ c main_arg1 (by decide)
  have e0 : Region0.xA (V1 m ρ) c = (m ((c : Thread nD τ).loc main_arg0)) := W1_arg m ρ c main_arg0 (by decide)
  have e3 : Region0.wA (V1 m ρ) c = (m ((c : Thread nD τ).loc main_arg3)) := W1_arg m ρ c main_arg3 (by decide)
  have hv : Region0.bA (V1 m ρ) c = shapeCast S1x64 (m ((c : Thread nD τ).loc main_arg4)) shapeCasts_S64_S1x64 := by
    show StableHlo.after hostOps0 (W0 m ρ c) (Proc.devRef .tc main_v0) = _
    simp only [hostOps0]
    after_results
    rfl
  rw [e1, e0, e3, hv, row64]

/-- The second region finds the first region's output in its second window's array. -/
theorem W3_x1 (c : Dev nD) : W3 m ρ c (Proc.devRef .tc main_v1) = (Cert.Gnn.layer (m ((c : Thread nD τ).loc main_arg1)) (m ((c : Thread nD τ).loc main_arg0)) (m ((c : Thread nD τ).loc main_arg3)) (m ((c : Thread nD τ).loc main_arg4))) :=
  (W3_keep m ρ c main_v1 (by decide) (by decide)).trans ((W2_arr m ρ c 4).trans (x1_eq m ρ c))

/-! ## The second region's output: the two halves of the readout of the second layer -/

/-- A row `[1, 16384]` made from a `[16384]` array reads, at `(0, n)`, the array at `n`. -/
theorem row16384 (v : Vec Ideal S16384 .i32) :
    (fun i : Cert.Gnn.SN.Idx => shapeCast S1x16384 v shapeCasts_S16384_S1x16384 (ix2 (0 : Fin 1) (⟨(i 0).val, (i 0).isLt⟩ : Fin 16384))) = v := by
  funext i
  rw [shapeCast_a_1a_apply]
  exact congrArg v (eq_ix1 i).symm

theorem parts_eq (c : Dev nD) :
    (dat1 (V3 m ρ) c).arrAt 5 cfg1.N = Cert.Gnn.coreParts (m ((c : Thread nD τ).loc main_arg2)) (Cert.Gnn.layer (m ((c : Thread nD τ).loc main_arg1)) (Cert.Gnn.layer (m ((c : Thread nD τ).loc main_arg1)) (m ((c : Thread nD τ).loc main_arg0)) (m ((c : Thread nD τ).loc main_arg3)) (m ((c : Thread nD τ).loc main_arg4))) (m ((c : Thread nD τ).loc main_arg5)) (m ((c : Thread nD τ).loc main_arg6))) := by
  rw [Region1.final1 (V3 m ρ) c]
  have e1 : Region1.adjA (V3 m ρ) c = (m ((c : Thread nD τ).loc main_arg1)) := W3_adj m ρ c
  have ey : Region1.yA (V3 m ρ) c = (Cert.Gnn.layer (m ((c : Thread nD τ).loc main_arg1)) (m ((c : Thread nD τ).loc main_arg0)) (m ((c : Thread nD τ).loc main_arg3)) (m ((c : Thread nD τ).loc main_arg4))) := W3_x1 m ρ c
  have ew : Region1.wA (V3 m ρ) c = (m ((c : Thread nD τ).loc main_arg5)) := W3_arg m ρ c main_arg5 (by decide) (by decide) (by decide) (by decide)
  have hb : Region1.bA (V3 m ρ) c = shapeCast S1x64 (m ((c : Thread nD τ).loc main_arg6)) shapeCasts_S64_S1x64 := by
    show StableHlo.after hostOps1 (W2 m ρ c) (Proc.devRef .tc main_v2) = _
    simp only [hostOps1]
    after_results
    rw [W2_arg m ρ c main_arg6 (by decide) (by decide)]
    rfl
  have hi : Region1.idA (V3 m ρ) c = shapeCast S1x16384 (m ((c : Thread nD τ).loc main_arg2)) shapeCasts_S16384_S1x16384 := by
    show StableHlo.after hostOps1 (W2 m ρ c) (Proc.devRef .tc main_v3) = _
    simp only [hostOps1]
    after_results
    rw [W2_arg m ρ c main_arg2 (by decide) (by decide)]
    rfl
  rw [e1, ey, ew, hb, hi, row64, row16384]

/-! ## The host tail: the halves added, then the head -/

/-- Zero plus the sum over the leading axis of the two halves is the kernel's arrangement of the per-graph sum. -/
theorem halves_sum (idx : Cert.Gnn.SN.Idx → BitVec 32) (y : Cert.Gnn.SNxD.Idx → EReal) :
    Host.reduceAdd (F := Ideal) (φ := .f32) (Cert.Gnn.coreParts idx y) (constant (F := Ideal) S_ .f32 0x00000000#32)
      reducesTo_S2x128x64_S128x64_d0 h_S_ = Cert.Gnn.segK idx y := by
  funext j
  unfold Host.reduceAdd
  rw [Ideal.hostReduceAdd_def,
    Ideal.hostReduceAdd_single reducesTo_S2x128x64_S128x64_d0 (by decide : S2x128x64.Reduces [0] S128x64)]
  show Ideal.ofBits .f32 0x00000000#32 + _ = _
  rw [Ideal.ofBits_zero_f32]
  unfold Cert.Gnn.segK
  refine congrArg (0 + ·) (Finset.sum_congr rfl fun k _ => ?_)
  exact congrArg (Cert.Gnn.coreParts idx y) (funext fun a => Fin.ext (by
    match a with
    | ⟨0, _⟩ => rfl
    | ⟨1, _⟩ => rfl
    | ⟨2, _⟩ => rfl))

set_option maxHeartbeats 1000000 in
/-- The result buffer is the head of the host sum of the second region's output. -/
theorem tail_eq (c : Dev nD) :
    W8 m ρ c (Proc.devRef .tc main_v17)
      = Cert.Gnn.tail
          (Host.reduceAdd (F := Ideal) (φ := .f32) (W4 m ρ c (Proc.devRef .tc main_v4)) (constant (F := Ideal) S_ .f32 0x00000000#32)
            reducesTo_S2x128x64_S128x64_d0 h_S_)
          (W4 m ρ c (Proc.devRef .tc main_arg7)) (W4 m ρ c (Proc.devRef .tc main_arg8)) (W4 m ρ c (Proc.devRef .tc main_arg9)) (W4 m ρ c (Proc.devRef .tc main_arg10)) := by
  show StableHlo.after hostOps2_3 (StableHlo.after hostOps2_2 (StableHlo.after hostOps2_1 (StableHlo.after hostOps2 (W4 m ρ c))))
    (Proc.devRef .tc main_v17) = _
  simp only [hostOps2, hostOps2_1, hostOps2_2, hostOps2_3]
  after_results_simp
  rfl

/-- THE RESULT: the kernel's result function of the launch arrays. -/
theorem result_eq (c : Dev nD) :
    W8 m ρ c (Proc.devRef .tc main_v17)
      = Cert.Gnn.resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [tail_eq,
    W4_arg m ρ c main_arg7 (by decide) (by decide) (by decide) (by decide) (by decide),
    W4_arg m ρ c main_arg8 (by decide) (by decide) (by decide) (by decide) (by decide),
    W4_arg m ρ c main_arg9 (by decide) (by decide) (by decide) (by decide) (by decide),
    W4_arg m ρ c main_arg10 (by decide) (by decide) (by decide) (by decide) (by decide),
    show W4 m ρ c (Proc.devRef .tc main_v4) = (dat1 (V3 m ρ) c).arrAt 5 cfg1.N from W4_arr m ρ c 5,
    parts_eq, halves_sum]
  rfl

end Cert.KernelIdeal.Glue

end
-- ==== Proof.RefSide.lean ====
/-
  The reference side: its run's result, read operation by operation, is the head applied to the per-graph sums of
  two layers in which the identity matrix is added to the adjacency first.
-/
import proofs.«404367_j83356725281276_3_alg».proof.Proof.Gen.ReferenceIdeal.Run
import proofs.«404367_j83356725281276_3_alg».proof.Proof.Gen.ReferenceIdeal.Read
import proofs.«404367_j83356725281276_3_alg».proof.Proof.Spec
import Idealize.ShloMosaic.PureOps.Ideal.Laws
import Idealize.ShloMosaic.Lib.Pipeline.Value
import Idealize.ShloMosaic.Lib.ValueIdx

noncomputable section

namespace Cert.ReferenceIdeal.RefSide

open Cert.ReferenceIdeal Cert.ReferenceIdeal.Gen Cert.ReferenceIdeal.Read Idealize.ShloMosaic Idealize.ShloMosaic.TcCoe
open Idealize.SL.Sem Idealize.ShloMosaic.ValueIdx

/-! ## The head -/

/-- The head: the last twelve operations of the run are the head of the specification, operation for operation. -/
theorem head_eq (x0 : (⟨S16384x64, .f32⟩ : BufTy).Contents (Elt Ideal)) (x1 : (⟨S16384x16384, .f32⟩ : BufTy).Contents (Elt Ideal))
    (x2 : (⟨S16384, .i32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S10x64, .f32⟩ : BufTy).Contents (Elt Ideal))
    (x10 : (⟨S10, .f32⟩ : BufTy).Contents (Elt Ideal)) :
    val_main_v35 (F := Ideal) x0 x1 x2 x3 x4 x5 x6 x7 x8 x9 x10
      = Cert.Gnn.tail (val_main_v23 (F := Ideal) x0 x1 x2 x3 x4 x5 x6) x7 x8 x9 x10 := by
  unfold val_main_v35 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1 val_main_v34 val_main_v33 val_main_v32 val_main_v31
    val_main_v30 val_main_v29 val_main_call2_v0 val_main_call2_cst val_main_v28 val_main_v27 val_main_v26 val_main_v25
    val_main_v24
  generalize val_main_v23 (F := Ideal) x0 x1 x2 x3 x4 x5 x6 = seg
  unfold Cert.Gnn.tail Cert.Gnn.logSoftmax Cert.Gnn.shifted Cert.Gnn.dense4 Cert.Gnn.dense3
  rfl

/-! ## The layers -/

/-- A word below 2^32 is read back from its 32-bit form. -/
theorem ofNat32_inj (n k : Nat) (hn : n < 16384) (hk : k < 16384) (h : BitVec.ofNat 32 n = BitVec.ofNat 32 k) : n = k := by
  have := congrArg BitVec.toNat h
  simp only [BitVec.toNat_ofNat] at this
  rw [Nat.mod_eq_of_lt (by omega), Nat.mod_eq_of_lt (by omega)] at this
  exact this

/-- The entry of the identity matrix: the two coordinates' words compared, the bit converted. -/
theorem ident_entry (n k : Nat) (hn : n < 16384) (hk : k < 16384) :
    FloatOps.uitofp (F := Ideal) .f32 (IntOp.cmpi .eq (IntOp.addi (BitVec.ofNat 32 n) 0#32) (BitVec.ofNat 32 k))
      = if n = k then (1 : EReal) else 0 := by
  show (((IntOp.cmpi .eq (IntOp.addi (BitVec.ofNat 32 n) 0#32) (BitVec.ofNat 32 k)).toNat : ℝ) : EReal) = _
  simp only [IntOp.cmpi, IntOp.addi, BitVec.add_zero]
  by_cases hnk : n = k
  · subst hnk; simp
  · have hne : BitVec.ofNat 32 n ≠ BitVec.ofNat 32 k := fun h => hnk (ofNat32_inj n k hn hk h)
    simp [hne, hnk]

/-- The adjacency with the identity matrix added, at an index. -/
theorem adjI_apply (x1 : (⟨S16384x16384, .f32⟩ : BufTy).Contents (Elt Ideal)) (j : S16384x16384.Idx) :
    val_main_v6 (F := Ideal) x1 j = x1 j + if (j 0).val = (j 1).val then (1 : EReal) else 0 := by
  rw [val_main_v6_apply, val_main_v5_apply, val_main_v4_apply, val_main_v3_apply, val_main_v0_apply, val_main_v1_apply,
    val_main_v2_apply, val_main_c_apply, ident_entry _ _ (j 0).isLt (j 1).isLt]
  rfl

/-! The composed index functions of the two products, the transpose and the two broadcasts, by coordinates. -/

theorem lidx7_9 (i : S16384x64.Idx) (d : Fin 64) (k : Fin 16384) :
    lidx_main_v7 (lidx_main_v9 i d) k = ix2 (i 0) k :=
  funext fun a => Fin.ext (by match a with | ⟨0, _⟩ => rfl | ⟨1, _⟩ => rfl)

theorem ridx7_9 (i : S16384x64.Idx) (d : Fin 64) (k : Fin 16384) :
    ridx_main_v7 (lidx_main_v9 i d) k = ix2 k d :=
  funext fun a => Fin.ext (by match a with | ⟨0, _⟩ => rfl | ⟨1, _⟩ => rfl)

theorem idx8_9 (i : S16384x64.Idx) (d : Fin 64) :
    idx_main_v8 (ridx_main_v9 i d) = ix2 (i 1) d :=
  funext fun a => Fin.ext (by match a with | ⟨0, _⟩ => rfl | ⟨1, _⟩ => rfl)

theorem idx10_11 (i : S16384x64.Idx) :
    idx_main_v10 (idx_main_v11 i) = ix1 (i 1) :=
  funext fun a => Fin.ext (by match a with | ⟨0, _⟩ => rfl)

/-- One layer of the run is the layer of the specification with the identity matrix added to the adjacency
    first: the node features `x0`, weights and bias are arbitrary. -/
theorem layer1_eq (x0 : (⟨S16384x64, .f32⟩ : BufTy).Contents (Elt Ideal)) (x1 : (⟨S16384x16384, .f32⟩ : BufTy).Contents (Elt Ideal))
    (x3 : (⟨S64x64, .f32⟩ : BufTy).Contents (Elt Ideal)) (x4 : (⟨S64, .f32⟩ : BufTy).Contents (Elt Ideal)) :
    val_main_v13 (F := Ideal) x0 x1 x3 x4 = Cert.Gnn.layerI x1 x0 x3 x4 := by
  funext i
  have hsum : ∑ d : Fin 64, val_main_v7 (F := Ideal) x0 x1 (lidx_main_v9 i d) * val_main_v8 (F := Ideal) x3 (ridx_main_v9 i d)
      = ∑ d : Fin 64, (∑ k : Fin 16384, (x1 (ix2 (i 0) k) + if (i 0).val = k.val then (1 : EReal) else 0) * x0 (ix2 k d))
          * x3 (ix2 (i 1) d) := by
    refine Finset.sum_congr rfl fun d _ => ?_
    rw [val_main_v7_apply, val_main_v8_apply, idx8_9]
    refine congrArg (· * x3 (ix2 (i 1) d)) (Finset.sum_congr rfl fun k _ => ?_)
    rw [adjI_apply, lidx7_9, ridx7_9]
    rfl
  rw [val_main_v13_apply, val_main_v12_apply, val_main_v9_apply, val_main_v11_apply, val_main_v10_apply,
    val_main_call0_v0_apply, val_main_call0_cst_apply, idx10_11, hsum, Ideal.maximumf_def, Ideal.addf_def,
    Ideal.ofBits_def, Ideal.ofBits_zero_f32]
  rfl

/-- The second layer of the run is the same operations on the first layer's result. -/
theorem layer2_eq (x0 : (⟨S16384x64, .f32⟩ : BufTy).Contents (Elt Ideal)) (x1 : (⟨S16384x16384, .f32⟩ : BufTy).Contents (Elt Ideal))
    (x3 : (⟨S64x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v20 (F := Ideal) x0 x1 x3 x4 x5 x6
      = Cert.Gnn.layerI x1 (val_main_v13 (F := Ideal) x0 x1 x3 x4) x5 x6 :=
  layer1_eq (val_main_v13 (F := Ideal) x0 x1 x3 x4) x1 x5 x6

/-! ## The per-graph sum -/

/-- The word of a natural number below 128, read signed, is that number. -/
theorem toInt_ofNat_small (g : Nat) (hg : g < 128) : (BitVec.ofNat 32 g).toInt = (g : ℤ) := by
  have ht : (BitVec.ofNat 32 g).toNat = g := by
    rw [BitVec.toNat_ofNat]; exact Nat.mod_eq_of_lt (by omega)
  rw [BitVec.toInt_eq_toNat_of_lt (by rw [ht]; omega), ht]

/-- A 32-bit word read signed is the natural number `g` below 128 exactly when it is `g`'s word. -/
theorem toInt_eq_natCast_iff (v : BitVec 32) (g : Nat) (hg : g < 128) :
    v.toInt = (g : ℤ) ↔ v = BitVec.ofNat 32 g :=
  ⟨fun h => BitVec.eq_of_toInt_eq (h.trans (toInt_ofNat_small g hg).symm), fun h => h ▸ toInt_ofNat_small g hg⟩

section Scatter

/-- On the graph axis the window starts at the node's id, read signed. -/
theorem start0 (j : S16384x64.Idx) (idx : IVec S16384x1 32) :
    scatter_S128x64_S16384x1_S16384x64_1_0_0_1.start j idx 0 = (idx (ix2 (j 0) 0)).toInt := by
  unfold ScatterDims.start
  rw [dif_pos (show (0 : Fin S128x64.rank) ∈ scatter_S128x64_S16384x1_S16384x64_1_0_0_1.scatterDimsToOperandDims by decide)]
  refine congrArg (fun v => (idx v).toInt) (funext fun b => Fin.ext ?_)
  match b with
  | ⟨0, _⟩ => rfl
  | ⟨1, _⟩ => rfl

/-- On the feature axis the window starts at zero. -/
theorem start1 (j : S16384x64.Idx) (idx : IVec S16384x1 32) :
    scatter_S128x64_S16384x1_S16384x64_1_0_0_1.start j idx 1 = 0 := by
  unfold ScatterDims.start
  rw [dif_neg (show ¬ (1 : Fin S128x64.rank) ∈ scatter_S128x64_S16384x1_S16384x64_1_0_0_1.scatterDimsToOperandDims by decide)]

/-- The graph axis is inserted: its window coordinate is zero. -/
theorem window0 (j : S16384x64.Idx) :
    scatter_S128x64_S16384x1_S16384x64_1_0_0_1.window j 0 = 0 := by
  unfold ScatterDims.window
  rw [dif_neg (show ¬ (0 : Fin S128x64.rank) ∈ scatter_S128x64_S16384x1_S16384x64_1_0_0_1.sKept by decide)]

/-- The feature axis is the update's window axis: its window coordinate is the update's feature. -/
theorem window1 (j : S16384x64.Idx) :
    scatter_S128x64_S16384x1_S16384x64_1_0_0_1.window j 1 = (j 1).val := by
  unfold ScatterDims.window
  rw [dif_pos (show (1 : Fin S128x64.rank) ∈ scatter_S128x64_S16384x1_S16384x64_1_0_0_1.sKept by decide)]
  rfl

/-- Where an update lands: row `n`, feature `b` lands at graph `g`, feature `h` exactly when the id of
    row `n`, read signed, is `g` and `b = h`. -/
theorem resultIdx_iff (j : S16384x64.Idx) (i : S128x64.Idx) (idx : IVec S16384x1 32) :
    scatter_S128x64_S16384x1_S16384x64_1_0_0_1.resultIdx? j idx = some i
      ↔ (idx (ix2 (j 0) 0)).toInt = ((i 0).val : ℤ) ∧ (j 1).val = (i 1).val := by
  have hi0 : (i 0).val < 128 := (i 0).isLt
  have hi1 : (i 1).val < 64 := (i 1).isLt
  have hj1 : (j 1).val < 64 := (j 1).isLt
  unfold ScatterDims.resultIdx?
  by_cases h : ∀ a, 0 ≤ scatter_S128x64_S16384x1_S16384x64_1_0_0_1.start j idx a
        + scatter_S128x64_S16384x1_S16384x64_1_0_0_1.window j a
      ∧ scatter_S128x64_S16384x1_S16384x64_1_0_0_1.start j idx a
        + scatter_S128x64_S16384x1_S16384x64_1_0_0_1.window j a < S128x64.size a
  · rw [dif_pos h, Option.some.injEq]
    have h0 := h 0
    have h1 := h 1
    rw [start0, window0] at h0
    rw [start1, window1] at h1
    constructor
    · intro hi
      have e0 : (scatter_S128x64_S16384x1_S16384x64_1_0_0_1.start j idx 0
          + scatter_S128x64_S16384x1_S16384x64_1_0_0_1.window j 0).toNat = (i 0).val := congrArg (fun f => (f 0).val) hi
      have e1 : (scatter_S128x64_S16384x1_S16384x64_1_0_0_1.start j idx 1
          + scatter_S128x64_S16384x1_S16384x64_1_0_0_1.window j 1).toNat = (i 1).val := congrArg (fun f => (f 1).val) hi
      rw [start0, window0] at e0
      rw [start1, window1] at e1
      constructor <;> omega
    · rintro ⟨e0, e1⟩
      funext a
      apply Fin.ext
      match a with
      | ⟨0, _⟩ =>
        show (scatter_S128x64_S16384x1_S16384x64_1_0_0_1.start j idx 0
          + scatter_S128x64_S16384x1_S16384x64_1_0_0_1.window j 0).toNat = (i 0).val
        rw [start0, window0]; omega
      | ⟨1, _⟩ =>
        show (scatter_S128x64_S16384x1_S16384x64_1_0_0_1.start j idx 1
          + scatter_S128x64_S16384x1_S16384x64_1_0_0_1.window j 1).toNat = (i 1).val
        rw [start1, window1]; omega
  · rw [dif_neg h]
    constructor
    · intro hh; cases hh
    · rintro ⟨e0, e1⟩
      exfalso
      apply h
      intro a
      match a with
      | ⟨0, _⟩ =>
        show 0 ≤ scatter_S128x64_S16384x1_S16384x64_1_0_0_1.start j idx 0
            + scatter_S128x64_S16384x1_S16384x64_1_0_0_1.window j 0
          ∧ scatter_S128x64_S16384x1_S16384x64_1_0_0_1.start j idx 0
            + scatter_S128x64_S16384x1_S16384x64_1_0_0_1.window j 0 < (128 : ℤ)
        rw [start0, window0]; constructor <;> omega
      | ⟨1, _⟩ =>
        show 0 ≤ scatter_S128x64_S16384x1_S16384x64_1_0_0_1.start j idx 1
            + scatter_S128x64_S16384x1_S16384x64_1_0_0_1.window j 1
          ∧ scatter_S128x64_S16384x1_S16384x64_1_0_0_1.start j idx 1
            + scatter_S128x64_S16384x1_S16384x64_1_0_0_1.window j 1 < (64 : ℤ)
        rw [start1, window1]; constructor <;> omega

end Scatter

/-- The id column's index of row `n` is row `n` of the ids. -/
theorem idx22 (n : Fin 16384) : idx_main_v22 (ix2 n (0 : Fin 1)) = ix1 n :=
  funext fun a => Fin.ext (by match a with | ⟨0, _⟩ => rfl)

/-- The scatter-add of the run is the per-graph sum of the specification: graph `g`, feature `h` receives
    zero plus every row whose id is `g`, at feature `h`. -/
theorem scatter_eq (x0 : (⟨S16384x64, .f32⟩ : BufTy).Contents (Elt Ideal)) (x1 : (⟨S16384x16384, .f32⟩ : BufTy).Contents (Elt Ideal))
    (x2 : (⟨S16384, .i32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    val_main_v23 (F := Ideal) x0 x1 x2 x3 x4 x5 x6
      = Cert.Gnn.segR x2 (val_main_v20 (F := Ideal) x0 x1 x3 x4 x5 x6) := by
  unfold val_main_v23
  generalize val_main_v20 (F := Ideal) x0 x1 x3 x4 x5 x6 = y
  funext i
  obtain ⟨g, h, rfl⟩ : ∃ (g : Fin 128) (h : Fin 64), i = ix2 g h := ⟨i 0, i 1, eq_ix2 i⟩
  show FloatOps.hostScatterAdd (F := Ideal) scatter_S128x64_S16384x1_S16384x64_1_0_0_1 .single
      (val_main_v21 (F := Ideal)) (val_main_v22 (F := Ideal) x2) y (ix2 g h)
    = 0 + ∑ n : Fin 16384, if x2 (ix1 n) = BitVec.ofNat 32 g.val then y (ix2 n h) else 0
  rw [Ideal.hostScatterAdd_def]
  unfold Ideal.hostScatterAdd
  rw [val_main_v21_apply, val_main_cst_apply, Ideal.ofBits_def, Ideal.ofBits_zero_f32, Finset.sum_filter, sum_idx2]
  refine congrArg (0 + ·) (Finset.sum_congr rfl fun n _ => ?_)
  have hcond : ∀ b : Fin 64,
      (scatter_S128x64_S16384x1_S16384x64_1_0_0_1.resultIdx? (ix2 n b) (val_main_v22 (F := Ideal) x2) = some (ix2 g h))
        ↔ (x2 (ix1 n) = BitVec.ofNat 32 g.val ∧ b = h) := by
    intro b
    rw [resultIdx_iff, val_main_v22_apply]
    show (x2 (idx_main_v22 (ix2 n 0))).toInt = (g.val : ℤ) ∧ b.val = h.val ↔ _
    rw [idx22, toInt_eq_natCast_iff _ _ g.isLt, Fin.val_inj]
  rw [Finset.sum_congr rfl fun b _ => if_congr (hcond b) rfl rfl]
  by_cases hP : x2 (ix1 n) = BitVec.ofNat 32 g.val
  · simp [hP]
  · simp [hP]

/-! ## The result -/

/-- The run's result term is the reference's result function of the argument arrays. -/
theorem result_eq (m : (ℓ : Loc nD τ sig) → Buf (Elt Ideal) ℓ) (c : Dev nD) :
    Cert.ReferenceIdeal.Value.res_main_v35 (F := Ideal) m c
      = Cert.Gnn.resultR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  rw [Read.val_main_v35_eq, head_eq, scatter_eq, layer2_eq, layer1_eq]
  rfl

end Cert.ReferenceIdeal.RefSide

end
-- ==== Proof.Law.lean ====
/-
  The two arrangements agree.
  A layer: `(a + e) · v = a · v + e · v` for real `a`, `e`, `v`, and `∑ k, [n = k] · x k d = x n d`, so adding the
  identity matrix to the adjacency is adding the node's own row to the product — where the adjacency and the
  features are real numbers. A layer of real arrays is real, so the second layer meets real features again.
  The sum per graph id: the kernel's two halves of 64 tiles of 128 rows enumerate every row once, and a one-hot
  factor times a value is the value or zero; sums of extended reals may be regrouped freely.
-/
import proofs.«404367_j83356725281276_3_alg».proof.Proof.Spec
import Mathlib.Data.EReal.Basic
import Mathlib.Data.EReal.Operations
import Mathlib.Algebra.BigOperators.Fin
import Mathlib.Algebra.BigOperators.Intervals

noncomputable section

namespace Cert.Gnn

open Idealize.ShloMosaic Idealize.ShloMosaic.ValueIdx

/-! ## Real numbers among the extended reals are closed under the layer's operations -/

/-- Zero is real. -/
theorem isReal_zero : IsReal 0 := ⟨0, EReal.coe_zero.symm⟩

/-- A sum of two reals is real. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- A product of two reals is real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The larger of a real and zero is one of the two, hence real. -/
theorem isReal_max_zero {a : EReal} (ha : IsReal a) : IsReal (max a 0) := by
  rcases le_total a 0 with h | h
  · rw [max_eq_right h]; exact isReal_zero
  · rw [max_eq_left h]; exact ha

/-- A finite sum of reals is real: by induction on the index set, adding one term at a time. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- A layer of real arrays is real. -/
theorem layer_isReal (adj : SNxN.Idx → EReal) (x : SNxD.Idx → EReal) (W : SDxD.Idx → EReal) (b : SD.Idx → EReal)
    (hadj : ∀ i, IsReal (adj i)) (hx : ∀ i, IsReal (x i)) (hW : ∀ i, IsReal (W i)) (hb : ∀ i, IsReal (b i)) :
    ∀ i, IsReal (layer adj x W b i) := by
  intro i
  unfold layer
  exact isReal_max_zero (isReal_add
    (isReal_sum _ _ fun d _ => isReal_mul
      (isReal_add (isReal_sum _ _ fun k _ => isReal_mul (hadj _) (hx _)) (hx _)) (hW _))
    (hb _))

/-- One row of the product with the identity added to the matrix: for real entries `a k` and `v k`,
    `(a k + [m = k]) · v k = a k · v k + [m = k] · v k` (distributivity, which holds among reals), the sum splits
    into the two sums, and the second has the single nonzero term `v m`. -/
theorem sum_add_indicator_mul {n : Nat} (a v : Fin n → EReal) (m : Fin n) (ha : ∀ k, IsReal (a k))
    (hv : ∀ k, IsReal (v k)) :
    ∑ k : Fin n, (a k + (if m.val = k.val then (1 : EReal) else 0)) * v k = ∑ k : Fin n, a k * v k + v m := by
  have h1 : ∀ k : Fin n, (a k + (if m.val = k.val then (1 : EReal) else 0)) * v k
      = a k * v k + (if m.val = k.val then v k else 0) := by
    intro k
    obtain ⟨r, hr⟩ := ha k
    obtain ⟨s, hs⟩ := hv k
    rw [hr, hs]
    by_cases h : m.val = k.val
    · rw [if_pos h, if_pos h, ← EReal.coe_one, ← EReal.coe_add, ← EReal.coe_mul, ← EReal.coe_mul, ← EReal.coe_add,
        add_mul, one_mul]
    · rw [if_neg h, if_neg h, add_zero, add_zero]
  rw [Finset.sum_congr rfl fun k _ => h1 k, Finset.sum_add_distrib]
  congr 1
  rw [Finset.sum_eq_single m]
  · rw [if_pos rfl]
  · intro k _ hk
    rw [if_neg]
    intro h
    exact hk (Fin.ext h.symm)
  · intro h
    exact absurd (Finset.mem_univ m) h

/-- With a real adjacency and real features, adding the identity matrix first is adding the node's own row after. -/
theorem layerI_eq_layer (adj : SNxN.Idx → EReal) (x : SNxD.Idx → EReal) (W : SDxD.Idx → EReal) (b : SD.Idx → EReal)
    (hadj : ∀ i, IsReal (adj i)) (hx : ∀ i, IsReal (x i)) : layerI adj x W b = layer adj x W b := by
  funext i
  have key : ∀ d : Fin 64,
      (∑ k : Fin 16384, (adj (ix2 (i 0) k) + (if (i 0).val = k.val then (1 : EReal) else 0)) * x (ix2 k d))
        = ∑ k : Fin 16384, adj (ix2 (i 0) k) * x (ix2 k d) + x (ix2 (i 0) d) := fun d =>
    sum_add_indicator_mul (n := 16384) (fun k => adj (ix2 (i 0) k)) (fun k => x (ix2 k d)) (i 0)
      (fun _ => hadj _) (fun _ => hx _)
  unfold layerI layer
  simp only [key]

/-! ## The 128 tiles of 128 rows are all the rows, once each -/

/-- A row number is a tile number and a place in the tile: `n = 128 · (n / 128) + n % 128`. -/
def tileEquiv : Fin 128 × Fin 128 ≃ Fin 16384 where
  toFun p := ⟨128 * p.1.val + p.2.val, by have := p.1.isLt; have := p.2.isLt; omega⟩
  invFun n := (⟨n.val / 128, by have := n.isLt; omega⟩, ⟨n.val % 128, Nat.mod_lt _ (by decide)⟩)
  left_inv p := by
    obtain ⟨⟨a, ha⟩, ⟨b, hb⟩⟩ := p
    refine Prod.ext (Fin.ext ?_) (Fin.ext ?_)
    · show (128 * a + b) / 128 = a
      omega
    · show (128 * a + b) % 128 = b
      omega
  right_inv n := by
    refine Fin.ext ?_
    show 128 * (n.val / 128) + n.val % 128 = n.val
    omega

/-- Below 128 tiles the remainder in `row` does nothing. -/
theorem row_eq_tileEquiv (t j : Fin 128) : row t.val j = tileEquiv (t, j) := by
  refine Fin.ext ?_
  show (128 * t.val + j.val) % 16384 = 128 * t.val + j.val
  exact Nat.mod_eq_of_lt (by have := t.isLt; have := j.isLt; omega)

/-- A sum over all rows is the sum over the tiles of the sums over each tile's rows. -/
theorem sum_rows (f : Fin 16384 → EReal) :
    ∑ n : Fin 16384, f n = ∑ t ∈ Finset.range 128, ∑ j : Fin 128, f (row t j) := by
  rw [← Equiv.sum_comp tileEquiv f, Fintype.sum_prod_type,
    ← Fin.sum_univ_eq_sum_range (fun t => ∑ j : Fin 128, f (row t j)) 128]
  refine Finset.sum_congr rfl fun t _ => Finset.sum_congr rfl fun j _ => ?_
  rw [row_eq_tileEquiv]

/-- The 128 tiles are the first 64 and the next 64. -/
theorem sum_halves (f : Fin 16384 → EReal) :
    ∑ n : Fin 16384, f n
      = (∑ s ∈ Finset.range 64, ∑ j : Fin 128, f (row (64 * 0 + s) j))
        + ∑ s ∈ Finset.range 64, ∑ j : Fin 128, f (row (64 * 1 + s) j) := by
  rw [sum_rows, Nat.mul_zero, Nat.mul_one]
  simp only [Nat.zero_add]
  exact Finset.sum_range_add (fun t => ∑ j : Fin 128, f (row t j)) 64 64

/-- The two halves of 64 tiles of 128 rows are all the rows, once each. -/
theorem segK_eq_segR (idx : SN.Idx → BitVec 32) (y : SNxD.Idx → EReal) : segK idx y = segR idx y := by
  funext i
  show 0 + ∑ c : Fin 2, (0 + ∑ s ∈ Finset.range 64, ∑ j : Fin 128,
      (if idx (ix1 (row (64 * c.val + s) j)) = BitVec.ofNat 32 (i 0).val then (1 : EReal) else 0)
        * y (ix2 (row (64 * c.val + s) j) (i 1)))
    = 0 + ∑ n : Fin 16384, if idx (ix1 n) = BitVec.ofNat 32 (i 0).val then y (ix2 n (i 1)) else 0
  rw [Fin.sum_univ_two]
  simp only [zero_add, ite_mul, one_mul, zero_mul]
  exact (sum_halves fun n => if idx (ix1 n) = BitVec.ofNat 32 (i 0).val then y (ix2 n (i 1)) else 0).symm

/-- The two programs' results agree on real node features, adjacency, first weights and first bias. -/
theorem resultR_eq_resultK (x : SNxD.Idx → EReal) (adj : SNxN.Idx → EReal) (idx : SN.Idx → BitVec 32)
    (W1 : SDxD.Idx → EReal) (b1 : SD.Idx → EReal) (W2 : SDxD.Idx → EReal) (b2 : SD.Idx → EReal)
    (W3 : SDxD.Idx → EReal) (b3 : SD.Idx → EReal) (W4 : SCxD.Idx → EReal) (b4 : SC.Idx → EReal)
    (hx : ∀ i, IsReal (x i)) (hadj : ∀ i, IsReal (adj i)) (hW1 : ∀ i, IsReal (W1 i)) (hb1 : ∀ i, IsReal (b1 i)) :
    resultR x adj idx W1 b1 W2 b2 W3 b3 W4 b4 = resultK x adj idx W1 b1 W2 b2 W3 b3 W4 b4 := by
  unfold resultR resultK
  rw [layerI_eq_layer adj x W1 b1 hadj hx,
    layerI_eq_layer adj _ W2 b2 hadj (layer_isReal adj x W1 b1 hadj hx hW1 hb1), segK_eq_segR]

end Cert.Gnn

end
-- ==== Proof.Finite.lean ====
/-
  What the precondition says of the arrays the algebra needs real: every entry of the node features, the adjacency,
  the first layer's weights and its bias has `|v| < +∞`, hence is a real number.
-/
import proofs.«404367_j83356725281276_3_alg».proof.Pre_finite_inputs
import proofs.«404367_j83356725281276_3_alg».proof.Proof.Gen.Pre_finite_inputs
import proofs.«404367_j83356725281276_3_alg».proof.Proof.Spec
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Real

open Cert.Pre_finite_inputs Cert.Pre_finite_inputs.Gen Idealize.ShloMosaic Idealize.ShloMosaic.ValueIdx

/-- The pattern `0x7F800000` denotes `+∞`. -/
theorem ofBits_inf_f32 : Ideal.ofBits .f32 0x7F800000#32 = (⊤ : EReal) := by
  simp [Ideal.ofBits, Ideal.ieee]

/-- An extended real whose absolute value `max v (-v)` is below `+∞` is a real number: `⊥` and `⊤` both have
    absolute value `⊤`. -/
theorem isReal_of_abs_lt_top (v : EReal) (h : max v (-v) < ⊤) : Cert.Gnn.IsReal v := by
  induction v using EReal.rec with
  | bot => simp at h
  | top => simp at h
  | coe r => exact ⟨r, rfl⟩

/-- The comparison `|v| < +∞` read at one element. -/
theorem isReal_of_cmp (v : Ideal .f32)
    (h : FloatOps.cmpf .olt (FloatOps.hostAbsf v) (FloatOps.ofBits (F := Ideal) .f32 0x7F800000#32) = 1#1) :
    Cert.Gnn.IsReal v := by
  refine isReal_of_abs_lt_top v ?_
  have h' : Ideal.cmp .olt (max v (-v)) (Ideal.ofBits .f32 0x7F800000#32) = 1#1 := h
  rw [ofBits_inf_f32] at h'
  by_contra hn
  simp [Ideal.cmp, hn] at h'

/-- The scalar shape has one index. -/
instance : Subsingleton S_.Idx := ⟨fun a b => funext fun d => d.elim0⟩

/-- If the test "every entry has `|v| < +∞`" of an array of any shape is one, every entry of the array is a real
    number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
      (cmpf .olt (Host.absf x) (broadcastInDim s ![] hb (constant (F := Ideal) S_ .f32 0x7F800000#32)))
      (constantI S_ 1 1#1) hr hu j = 1#1) :
    ∀ i, Cert.Gnn.IsReal (x i) := fun i =>
  isReal_of_cmp (x i) (Host.reduce_andi_all _ _ hr hu j e i)

/-- The precondition all ones makes the four arrays real, entry by entry. -/
theorem real_of_pre (a0 : FVec Ideal S16384x64 .f32) (a1 : FVec Ideal S16384x16384 .f32) (a2 : IVec S16384 32)
    (a3 : FVec Ideal S64x64 .f32) (a4 : FVec Ideal S64 .f32) (a5 : FVec Ideal S64x64 .f32) (a6 : FVec Ideal S64 .f32)
    (a7 : FVec Ideal S64x64 .f32) (a8 : FVec Ideal S64 .f32) (a9 : FVec Ideal S10x64 .f32) (a10 : FVec Ideal S10 .f32)
    (h : Cert.Pre_finite_inputs.fn (F := Ideal) a0 a1 a2 a3 a4 a5 a6 a7 a8 a9 a10 = fun _ => 1#1) :
    (∀ i, Cert.Gnn.IsReal (a0 i)) ∧ (∀ i, Cert.Gnn.IsReal (a1 i)) ∧ (∀ i, Cert.Gnn.IsReal (a3 i))
      ∧ (∀ i, Cert.Gnn.IsReal (a4 i)) := by
  have h0 := congrFun h ValueIdx.ix0
  dsimp only [fn, fn_part1, fn_part2, andi] at h0
  -- the tests of a10, a9, a8, a7, a6, a5 are the six outer conjuncts; the four needed ones lie under them
  have h5 := (IntOp.andi_eq_one.1 (IntOp.andi_eq_one.1 (IntOp.andi_eq_one.1 (IntOp.andi_eq_one.1
    (IntOp.andi_eq_one.1 (IntOp.andi_eq_one.1 h0).1).1).1).1).1).1
  obtain ⟨h3, e4⟩ := IntOp.andi_eq_one.1 h5
  obtain ⟨h1, e3⟩ := IntOp.andi_eq_one.1 h3
  obtain ⟨e0, e1⟩ := IntOp.andi_eq_one.1 h1
  exact ⟨real_of_all a0 _ _ _ _ e0, real_of_all a1 _ _ _ _ e1, real_of_all a3 _ _ _ _ e3, real_of_all a4 _ _ _ _ e4⟩

end Cert.Pre_finite_inputs.Real

end
-- ==== Proof.lean ====
/-
  The kernel and the reference compute the same function of their arguments over the extended reals.

  Both are a graph network on 16384 nodes: two layers `relu ((adj + I) · x · Wᵀ + b)`, a sum of the node features per
  graph id over 128 graphs, and a head of two dense layers and a log-softmax. The kernel adds the node's own row to
  `adj · x` where the reference adds the identity matrix to `adj`; the two agree where the adjacency and the features
  are real numbers, which the precondition gives for the inputs and a layer of real arrays keeps. The kernel sums
  the rows per graph tile by tile with a one-hot product, in two halves the host adds; the reference scatters every row
  into the row its id names; a row whose id is no graph's is in neither sum; both are sums of the same terms. The head is
  the same operations in both.
  The three frames are the generated ones (the reference's is its run with the result dropped); no idealization
  rewrite was applied, so preserving them is trivial.
-/
import proofs.«404367_j83356725281276_3_alg».proof.Defs
import proofs.«404367_j83356725281276_3_alg».proof.Proof.Gen.Kernel
import proofs.«404367_j83356725281276_3_alg».proof.Proof.Gen.Kernel.Skeleton
import proofs.«404367_j83356725281276_3_alg».proof.Proof.Gen.Kernel.Launch
import proofs.«404367_j83356725281276_3_alg».proof.Proof.Gen.Kernel.Points
import proofs.«404367_j83356725281276_3_alg».proof.Proof.Gen.Kernel.Frame
import proofs.«404367_j83356725281276_3_alg».proof.Proof.Gen.KernelIdeal
import proofs.«404367_j83356725281276_3_alg».proof.Proof.Gen.KernelIdeal.Skeleton
import proofs.«404367_j83356725281276_3_alg».proof.Proof.Gen.KernelIdeal.Launch
import proofs.«404367_j83356725281276_3_alg».proof.Proof.Gen.KernelIdeal.Points
import proofs.«404367_j83356725281276_3_alg».proof.Proof.Gen.KernelIdeal.Frame
import proofs.«404367_j83356725281276_3_alg».proof.Proof.Gen.ReferenceIdeal
import proofs.«404367_j83356725281276_3_alg».proof.Proof.Gen.Pre_finite_inputs
import proofs.«404367_j83356725281276_3_alg».proof.Proof.Gen.ReferenceIdeal.Run
import proofs.«404367_j83356725281276_3_alg».proof.Proof.Gen.ReferenceIdeal.Read
import proofs.«404367_j83356725281276_3_alg».proof.Proof.Spec
import proofs.«404367_j83356725281276_3_alg».proof.Proof.KRun
import proofs.«404367_j83356725281276_3_alg».proof.Proof.KGlue
import proofs.«404367_j83356725281276_3_alg».proof.Proof.RefSide
import proofs.«404367_j83356725281276_3_alg».proof.Proof.Law
import proofs.«404367_j83356725281276_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the kernel's result function of the arguments: the kernel by its run read back through the
    two regions, the reference by its run read operation by operation and the law joining the two arrangements,
    whose realness hypotheses the precondition supplies. -/
theorem algebraic : Cert.algebraic_KernelIdeal_ReferenceIdeal := by
  intro m ρ m' ρ' hpre hagree
  refine ⟨fun c => Cert.Gnn.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Glue.result_eq m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefSide.result_eq m' c]
    obtain ⟨e0, e1, e2, e3, e4, e5, e6, e7, e8, e9, e10⟩ := hagree c
    rw [e0, e1, e2, e3, e4, e5, e6, e7, e8, e9, e10]
    obtain ⟨r0, r1, r3, r4⟩ := Cert.Pre_finite_inputs.Real.real_of_pre _ _ _ _ _ _ _ _ _ _ _ (hpre c)
    exact Cert.Gnn.resultR_eq_resultK _ _ _ _ _ _ _ _ _ _ _ r0 r1 r3 r4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
